-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_1)) (v1 : (c : Dev Cert.KernelIdeal.nD) → Buf (Elt Ideal) ((c.tc : Thread Cert.KernelIdeal.nD Cert.KernelIdeal.τ).loc Cert.KernelIdeal.main_v1_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_1) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x2048x32 : Shape := ⟨4, ![4, 8, 2048, 32]⟩
abbrev S4x8x2048x2048 : Shape := ⟨4, ![4, 8, 2048, 2048]⟩
abbrev S_ : Shape := ⟨0, ![]⟩

class Facts : Prop where
  bcast_S_S4x8x2048x32 : S_.BroadcastsInDim S4x8x2048x32 (![] : Fin 0 → Fin S4x8x2048x32.rank)
  reducesTo_S4x8x2048x32_S_d0_1_2_3 : S4x8x2048x32.ReducesTo [0, 1, 2, 3] S_
  h_S_ : 0 < S_.numel
  bcast_S_S4x8x2048x2048 : S_.BroadcastsInDim S4x8x2048x2048 (![] : Fin 0 → Fin S4x8x2048x2048.rank)
  reducesTo_S4x8x2048x2048_S_d0_1_2_3 : S4x8x2048x2048.ReducesTo [0, 1, 2, 3] S_

variable [Facts]

def fn_part1 {F : FTy → Type} [FloatOps F] (main_v13 : IVec S_ 1) (main_v16 : IVec S4x8x2048x2048 1) : IVec S_ 1 :=
  let main_c_5 : IVec S_ 1 := constantI S_ 1 1#1
  let main_v17 : IVec S_ 1 := (fun x v => Host.reduce IntOp.andi x v reducesTo_S4x8x2048x2048_S_d0_1_2_3 h_S_) main_v16 main_c_5
  let main_v18 : IVec S_ 1 := andi main_v13 main_v17
  main_v18

def fn {F : FTy → Type} [FloatOps F] (main_arg0 : FVec F S4x8x2048x32 .f32) (main_arg1 : FVec F S4x8x2048x32 .f32) (main_arg2 : FVec F S4x8x2048x32 .f32) (main_arg3 : IVec S4x8x2048x2048 1) (main_arg4 : FVec F S4x8x2048x2048 .f32) : IVec S_ 1 :=
  let main_v0 : FVec F S4x8x2048x32 .f32 := Host.absf main_arg0
  let main_cst : FVec F S_ .f32 := constant S_ .f32 0x7F800000#32
  let main_v1 : FVec F S4x8x2048x32 .f32 := broadcastInDim S4x8x2048x32 ![] bcast_S_S4x8x2048x32 main_cst
  let main_v2 : IVec S4x8x2048x32 1 := cmpf .olt main_v0 main_v1
  let main_c : IVec S_ 1 := constantI S_ 1 1#1
  let main_v3 : IVec S_ 1 := (fun x v => Host.reduce IntOp.andi x v reducesTo_S4x8x2048x32_S_d0_1_2_3 h_S_) main_v2 main_c
  let main_v4 : FVec F S4x8x2048x32 .f32 := Host.absf main_arg1
  let main_cst_0 : FVec F S_ .f32 := constant S_ .f32 0x7F800000#32
  let main_v5 : FVec F S4x8x2048x32 .f32 := broadcastInDim S4x8x2048x32 ![] bcast_S_S4x8x2048x32 main_cst_0
  let main_v6 : IVec S4x8x2048x32 1 := cmpf .olt main_v4 main_v5
  let main_c_1 : IVec S_ 1 := constantI S_ 1 1#1
  let main_v7 : IVec S_ 1 := (fun x v => Host.reduce IntOp.andi x v reducesTo_S4x8x2048x32_S_d0_1_2_3 h_S_) main_v6 main_c_1
  let main_v8 : IVec S_ 1 := andi main_v3 main_v7
  let main_v9 : FVec F S4x8x2048x32 .f32 := Host.absf main_arg2
  let main_cst_2 : FVec F S_ .f32 := constant S_ .f32 0x7F800000#32
  let main_v10 : FVec F S4x8x2048x32 .f32 := broadcastInDim S4x8x2048x32 ![] bcast_S_S4x8x2048x32 main_cst_2
  let main_v11 : IVec S4x8x2048x32 1 := cmpf .olt main_v9 main_v10
  let main_c_3 : IVec S_ 1 := constantI S_ 1 1#1
  let main_v12 : IVec S_ 1 := (fun x v => Host.reduce IntOp.andi x v reducesTo_S4x8x2048x32_S_d0_1_2_3 h_S_) main_v11 main_c_3
  let main_v13 : IVec S_ 1 := andi main_v8 main_v12
  let main_v14 : FVec F S4x8x2048x2048 .f32 := Host.absf main_arg4
  let main_cst_4 : FVec F S_ .f32 := constant S_ .f32 0x7F800000#32
  let main_v15 : FVec F S4x8x2048x2048 .f32 := broadcastInDim S4x8x2048x2048 ![] bcast_S_S4x8x2048x2048 main_cst_4
  let main_v16 : IVec S4x8x2048x2048 1 := cmpf .olt main_v14 main_v15
  fn_part1 (F := F) main_v13 main_v16
-- ==== Kernel.lean ====
abbrev S4x8x2048x32 : Shape := ⟨4, ![4, 8, 2048, 32]⟩
abbrev S4x8x2048x2048 : Shape := ⟨4, ![4, 8, 2048, 2048]⟩
abbrev S1x1x512x32 : Shape := ⟨4, ![1, 1, 512, 32]⟩
abbrev S1x1x2048x32 : Shape := ⟨4, ![1, 1, 2048, 32]⟩
abbrev S1x1x512x2048 : Shape := ⟨4, ![1, 1, 512, 2048]⟩
abbrev S512x32 : Shape := ⟨2, ![512, 32]⟩
abbrev S2048x32 : Shape := ⟨2, ![2048, 32]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 14
  | .smem => 0
  | _ => 0

abbrev bufTy : (tb : Table) → Fin (tcTables nBuf tb) → BufTy
  | .hbm, ⟨0, _⟩ => ⟨S4x8x2048x32, .f32⟩
  | .hbm, ⟨1, _⟩ => ⟨S4x8x2048x32, .f32⟩
  | .hbm, ⟨2, _⟩ => ⟨S4x8x2048x32, .f32⟩
  | .hbm, ⟨3, _⟩ => ⟨S4x8x2048x2048, .i1⟩
  | .hbm, ⟨4, _⟩ => ⟨S4x8x2048x2048, .f32⟩
  | .hbm, ⟨5, _⟩ => ⟨S4x8x2048x2048, .i32⟩
  | .hbm, ⟨6, _⟩ => ⟨S4x8x2048x2048, .f32⟩
  | .hbm, ⟨7, _⟩ => ⟨S4x8x2048x32, .f32⟩
  | .local _ .vmem, ⟨0, _⟩ => ⟨S1x1x512x32, .f32⟩
  | .local _ .vmem, ⟨1, _⟩ => ⟨S1x1x512x32, .f32⟩
  | .local _ .vmem, ⟨2, _⟩ => ⟨S1x1x2048x32, .f32⟩
  | .local _ .vmem, ⟨3, _⟩ => ⟨S1x1x2048x32, .f32⟩
  | .local _ .vmem, ⟨4, _⟩ => ⟨S1x1x2048x32, .f32⟩
  | .local _ .vmem, ⟨5, _⟩ => ⟨S1x1x2048x32, .f32⟩
  | .local _ .vmem, ⟨6, _⟩ => ⟨S1x1x512x2048, .f32⟩
  | .local _ .vmem, ⟨7, _⟩ => ⟨S1x1x512x2048, .f32⟩
  | .local _ .vmem, ⟨8, _⟩ => ⟨S1x1x512x2048, .i32⟩
  | .local _ .vmem, ⟨9, _⟩ => ⟨S1x1x512x2048, .i32⟩
  | .local _ .vmem, ⟨10, _⟩ => ⟨S1x1x512x2048, .f32⟩
  | .local _ .vmem, ⟨11, _⟩ => ⟨S1x1x512x2048, .f32⟩
  | .local _ .vmem, ⟨12, _⟩ => ⟨S1x1x512x32, .f32⟩
  | .local _ .vmem, ⟨13, _⟩ => ⟨S1x1x512x32, .f32⟩
  | _, _ => ⟨S4x8x2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 8, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x512x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

class Facts₀ : Prop where
  natLt_1_32 : 1 < 32
  inb_S1x1x512x32_S1x1x512x32_0_0_0_0 : ∀ a, (![0, 0, 0, 0] : Fin 4 → Nat) a + S1x1x512x32.size a ≤ S1x1x512x32.size a
  h_S1x1x512x32 : 0 < S1x1x512x32.numel
  shapeCasts_S1x1x512x32_S512x32 : S1x1x512x32.ShapeCasts S512x32
  inb_S1x1x2048x32_S1x1x2048x32_0_0_0_0 : ∀ a, (![0, 0, 0, 0] : Fin 4 → Nat) a + S1x1x2048x32.size a ≤ S1x1x2048x32.size a
  h_S1x1x2048x32 : 0 < S1x1x2048x32.numel
  shapeCasts_S1x1x2048x32_S2048x32 : S1x1x2048x32.ShapeCasts S2048x32
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  shapeCasts_S512x2048_S1x1x512x2048 : S512x2048.ShapeCasts S1x1x512x2048
  reduces_S512x2048_S512 : S512x2048.Reduces [1] S512
  shapeCasts_S512_S512x1 : S512.ShapeCasts S512x1
  broadcasts_S512x1_S512x2048 : S512x1.Broadcasts S512x2048
  bitsLt_bf16_f32 : FTy.bits .bf16 < FTy.bits .f32
  shapeCasts_S512x32_S1x1x512x32 : S512x32.ShapeCasts S1x1x512x32
  dot_S512x32_S2048x32_S512x2048_1_1_0_0_n_n_wf : DotDims.WF S512x32 S2048x32 S512x2048 [1] [1] [0] [0] [] []
  dot_S512x2048_S2048x32_S512x32_1_0_0_1_n_n_wf : DotDims.WF S512x2048 S2048x32 S512x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x32.size a ≤ S4x8x2048x32.size a
  hwx0_0 : ∀ i : grid0.Coords, EltTy.bits .f32 = 32 ∨ (Rect.block (s := S4x8x2048x32) S1x1x512x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x32.size a ≤ S4x8x2048x32.size a
  hwx0_1 : ∀ i : grid0.Coords, EltTy.bits .f32 = 32 ∨ (Rect.block (s := S4x8x2048x32) S1x1x2048x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x32.size a ≤ S4x8x2048x32.size a
  hwx0_2 : ∀ i : grid0.Coords, EltTy.bits .f32 = 32 ∨ (Rect.block (s := S4x8x2048x32) S1x1x2048x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x2048.size a ≤ S4x8x2048x2048.size a
  hwx0_3 : ∀ i : grid0.Coords, EltTy.bits .f32 = 32 ∨ (Rect.block (s := S4x8x2048x2048) S1x1x512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x2048.size a ≤ S4x8x2048x2048.size a
  hwx0_4 : ∀ i : grid0.Coords, EltTy.bits .i32 = 32 ∨ (Rect.block (s := S4x8x2048x2048) S1x1x512x2048.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x2048.size a ≤ S4x8x2048x2048.size a
  hwx0_5 : ∀ i : grid0.Coords, EltTy.bits .f32 = 32 ∨ (Rect.block (s := S4x8x2048x2048) S1x1x512x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x512x32.size a ≤ S4x8x2048x32.size a
  hwx0_6 : ∀ i : grid0.Coords, EltTy.bits .f32 = 32 ∨ (Rect.block (s := S4x8x2048x32) S1x1x512x32.size (cc0_transform_6 i) (hinb0_6 i)).WholeWords (EltTy.packing .f32)

variable [Facts₀]

def dot_S512x32_S2048x32_S512x2048_1_1_0_0_n_n : DotDims S512x32 S2048x32 S512x2048 where
  lhsContracting := [1]
  rhsContracting := [1]
  lhsNonContracting := [0]
  rhsNonContracting := [0]
  lhsBatch := []
  rhsBatch := []
  wf := dot_S512x32_S2048x32_S512x2048_1_1_0_0_n_n_wf
def dot_S512x2048_S2048x32_S512x32_1_0_0_1_n_n : DotDims S512x2048 S2048x32 S512x32 where
  lhsContracting := [1]
  rhsContracting := [0]
  lhsNonContracting := [0]
  rhsNonContracting := [1]
  lhsBatch := []
  rhsBatch := []
  wf := dot_S512x2048_S2048x32_S512x32_1_0_0_1_n_n_wf

abbrev win0_0 : Pipeline.Window sig grid0 :=
  Pipeline.Window.ofSpec (Memref.whole main_arg0) S1x1x512x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1x512x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_0) S1x1x512x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_1) S1x1x512x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x8x2048x32 : Shape := ⟨4, ![4, 8, 2048, 32]⟩
abbrev S4x8x2048x2048 : Shape := ⟨4, ![4, 8, 2048, 2048]⟩
abbrev S_ : Shape := ⟨0, ![]⟩
abbrev S4x8x2048 : Shape := ⟨3, ![4, 8, 2048]⟩
abbrev S4x8x2048x1 : Shape := ⟨4, ![4, 8, 2048, 1]⟩

abbrev nBuf : Space → Nat
  | .hbm => 28
  | .vmem => 0
  | .smem => 0
  | _ => 0

abbrev bufTy : (tb : Table) → Fin (tcTables nBuf tb) → BufTy
  | .hbm, ⟨0, _⟩ => ⟨S4x8x2048x32, .f32⟩
  | .hbm, ⟨1, _⟩ => ⟨S4x8x2048x32, .f32⟩
  | .hbm, ⟨2, _⟩ => ⟨S4x8x2048x32, .f32⟩
  | .hbm, ⟨3, _⟩ => ⟨S4x8x2048x2048, .i1⟩
  | .hbm, ⟨4, _⟩ => ⟨S4x8x2048x2048, .f32⟩
  | .hbm, ⟨5, _⟩ => ⟨S4x8x2048x2048, .f32⟩
  | .hbm, ⟨6, _⟩ => ⟨S_, .f32⟩
  | .hbm, ⟨7, _⟩ => ⟨S4x8x2048x2048, .f32⟩
  | .hbm, ⟨8, _⟩ => ⟨S4x8x2048x2048, .f32⟩
  | .hbm, ⟨9, _⟩ => ⟨S4x8x2048x2048, .f32⟩
  | .hbm, ⟨10, _⟩ => ⟨S_, .f32⟩
  | .hbm, ⟨11, _⟩ => ⟨S4x8x2048x2048, .f32⟩
  | .hbm, ⟨12, _⟩ => ⟨S4x8x2048x2048, .f32⟩
  | .hbm, ⟨13, _⟩ => ⟨S_, .f32⟩
  | .hbm, ⟨14, _⟩ => ⟨S4x8x2048, .f32⟩
  | .hbm, ⟨15, _⟩ => ⟨S_, .f32⟩
  | .hbm, ⟨16, _⟩ => ⟨S4x8x2048, .f32⟩
  | .hbm, ⟨17, _⟩ => ⟨S4x8x2048, .f32⟩
  | .hbm, ⟨18, _⟩ => ⟨S4x8x2048x1, .f32⟩
  | .hbm, ⟨19, _⟩ => ⟨S4x8x2048x2048, .f32⟩
  | .hbm, ⟨20, _⟩ => ⟨S4x8x2048x2048, .f32⟩
  | .hbm, ⟨21, _⟩ => ⟨S4x8x2048x2048, .f32⟩
  | .hbm, ⟨22, _⟩ => ⟨S_, .f32⟩
  | .hbm, ⟨23, _⟩ => ⟨S4x8x2048, .f32⟩
  | .hbm, ⟨24, _⟩ => ⟨S4x8x2048x1, .f32⟩
  | .hbm, ⟨25, _⟩ => ⟨S4x8x2048x2048, .f32⟩
  | .hbm, ⟨26, _⟩ => ⟨S4x8x2048x2048, .f32⟩
  | .hbm, ⟨27, _⟩ => ⟨S4x8x2048x32, .f32⟩
  | _, _ => ⟨S4x8x2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_call0_v0 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]

class Facts₀ : Prop where
  bcast_S_S4x8x2048x2048 : S_.BroadcastsInDim S4x8x2048x2048 (![] : Fin 0 → Fin S4x8x2048x2048.rank)
  reducesTo_S4x8x2048x2048_S4x8x2048_d3 : S4x8x2048x2048.ReducesTo [3] S4x8x2048
  h_S_ : 0 < S_.numel
  bcast_S_S4x8x2048 : S_.BroadcastsInDim S4x8x2048 (![] : Fin 0 → Fin S4x8x2048.rank)
  bcast_S4x8x2048_S4x8x2048x1_0_1_2 : S4x8x2048.BroadcastsInDim S4x8x2048x1 (![0, 1, 2] : Fin 3 → Fin S4x8x2048x1.rank)
  bcast_S4x8x2048x1_S4x8x2048x2048_0_1_2_3 : S4x8x2048x1.BroadcastsInDim S4x8x2048x2048 (![0, 1, 2, 3] : Fin 4 → Fin S4x8x2048x2048.rank)
  dot_S4x8x2048x32_S4x8x2048x32_S4x8x2048x2048_3_3_2_2_01_01_wf : DotDims.WF S4x8x2048x32 S4x8x2048x32 S4x8x2048x2048 [3] [3] [2] [2] [0, 1] [0, 1]
  dot_S4x8x2048x2048_S4x8x2048x32_S4x8x2048x32_3_2_2_3_01_01_wf : DotDims.WF S4x8x2048x2048 S4x8x2048x32 S4x8x2048x32 [3] [2] [2] [3] [0, 1] [0, 1]

variable [Facts₀]

def dot_S4x8x2048x32_S4x8x2048x32_S4x8x2048x2048_3_3_2_2_01_01 : DotDims S4x8x2048x32 S4x8x2048x32 S4x8x2048x2048 where
  lhsContracting := [3]
  rhsContracting := [3]
  lhsNonContracting := [2]
  rhsNonContracting := [2]
  lhsBatch := [0, 1]
  rhsBatch := [0, 1]
  wf := dot_S4x8x2048x32_S4x8x2048x32_S4x8x2048x2048_3_3_2_2_01_01_wf
def dot_S4x8x2048x2048_S4x8x2048x32_S4x8x2048x32_3_2_2_3_01_01 : DotDims S4x8x2048x2048 S4x8x2048x32 S4x8x2048x32 where
  lhsContracting := [3]
  rhsContracting := [2]
  lhsNonContracting := [2]
  rhsNonContracting := [3]
  lhsBatch := [0, 1]
  rhsBatch := [0, 1]
  wf := dot_S4x8x2048x2048_S4x8x2048x32_S4x8x2048x32_3_2_2_3_01_01_wf

class Facts : Prop extends Facts₀ where

variable [Facts]
-- ==== Proof.AttnSpec.lean ====
/-
  Masked, biased, scaled dot-product attention on the extended reals, stated once for both programs.

  One score is  where(mask, fill, c * <q, k> + bias); a row of scores is normalised by a softmax taken
  with the row's maximum subtracted; the context is the normalised row times the value matrix.
  The two programs spell this differently:
    * the scale c multiplies every entry of q before the product (the tiled program) or the finished
      product <q, k> (the plain program): equal when q, k and c are real, by distributivity of a
      finite real sum;
    * the mask arrives as a 32-bit word compared with zero, or as the bit itself: the same bit;
    * the normalisation is p * (1 / l) or p / l: equal when the row sum l is a nonzero real, which
      it is when the scores are real, every exp of a real being positive;
    * the plain program takes the maximum once more against -inf and starts its sum from 0: no change.
  Nothing here mentions a program: only extended reals, words, and finite index types.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-! ## The constants the programs spell -/

/-- The pattern of -inf denotes the bottom of the extended reals. -/
theorem negInf_eq : Ideal.ofBits .f32 0xFF800000#32 = (⊥ : EReal) := by
  simp [Ideal.ofBits, Ideal.ieee]

/-- The pattern of 1.0 denotes 1. -/
theorem one_eq : Ideal.ofBits .f32 0x3F800000#32 = (1 : EReal) := by
  simp [Ideal.ofBits, Ideal.ieee, -EReal.coe_mul]; norm_num

/-- A pattern whose exponent field is neither all ones nor zero denotes a real number. -/
theorem ieee_normal_real (b : BitVec 32) (h1 : ¬ (b.extractLsb' 23 8).toNat = 2 ^ 8 - 1)
    (h0 : ¬ (b.extractLsb' 23 8).toNat = 0) : ∃ c : ℝ, Ideal.ofBits .f32 b = (c : EReal) := by
  show ∃ c : ℝ, Ideal.ieee 8 23 b = (c : EReal)
  unfold Ideal.ieee
  dsimp only
  rw [if_neg h1, if_neg h0]
  exact ⟨_, rfl⟩

/-- The scale 1/sqrt 32 as the programs round it (0.176776692...) is a real. -/
theorem scale_real : ∃ c : ℝ, Ideal.ofBits .f32 0x3E3504F3#32 = (c : EReal) :=
  ieee_normal_real _ (by decide) (by decide)

/-- The mask's fill value -10^9 is a real. -/
theorem fill_real : ∃ c : ℝ, Ideal.ofBits .f32 0xCE6E6B28#32 = (c : EReal) :=
  ieee_normal_real _ (by decide) (by decide)

/-! ## Real sums inside the extended reals -/

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## One score -/

/-- The tiled program's score: q scaled entry by entry, the mask a 32-bit word compared with zero. -/
def scoreK (q k : Fin 32 → EReal) (w : BitVec 32) (r : EReal) : EReal :=
  Scalar.select (IntOp.cmpi .ne w 0#32) (Ideal.ofBits .f32 0xCE6E6B28#32)
    ((∑ d : Fin 32, (q d * Ideal.ofBits .f32 0x3E3504F3#32) * k d) + r)

/-- The plain program's score: the finished product scaled, the mask a bit. -/
def scoreR (q k : Fin 32 → EReal) (b : BitVec 1) (r : EReal) : EReal :=
  Scalar.select b (Ideal.ofBits .f32 0xCE6E6B28#32)
    ((∑ d : Fin 32, q d * k d) * Ideal.ofBits .f32 0x3E3504F3#32 + r)

/-- A bit widened to a word and compared with zero is the bit. -/
theorem maskBit (b : BitVec 1) : IntOp.cmpi .ne (b.setWidth 32) 0#32 = b := by
  rcases BitVec.eq_zero_or_eq_one b with h | h <;> subst h <;> decide

/-- Scaling q first or the product afterwards: one real number. -/
theorem scoreK_eq_scoreR (q k : Fin 32 → EReal) (b : BitVec 1) (r : EReal)
    (hq : ∀ d, ∃ x : ℝ, q d = (x : EReal)) (hk : ∀ d, ∃ x : ℝ, k d = (x : EReal)) :
    scoreK q k (b.setWidth 32) r = scoreR q k b r := by
  unfold scoreK scoreR
  rw [maskBit]
  congr 2
  choose q' hq' using hq
  choose k' hk' using hk
  obtain ⟨c, hc⟩ := scale_real
  simp only [hq', hk', hc, ← EReal.coe_mul, ← coe_sum]
  congr 1
  rw [Finset.sum_mul]
  exact Finset.sum_congr rfl fun d _ => by ring

/-- A score of real operands is real. -/
theorem scoreR_real (q k : Fin 32 → EReal) (b : BitVec 1) (r : EReal)
    (hq : ∀ d, ∃ x : ℝ, q d = (x : EReal)) (hk : ∀ d, ∃ x : ℝ, k d = (x : EReal))
    (hr : ∃ x : ℝ, r = (x : EReal)) : ∃ x : ℝ, scoreR q k b r = (x : EReal) := by
  unfold scoreR Scalar.select
  split
  · exact fill_real
  · choose q' hq' using hq
    choose k' hk' using hk
    obtain ⟨c, hc⟩ := scale_real
    obtain ⟨r', hr'⟩ := hr
    refine ⟨(∑ d, q' d * k' d) * c + r', ?_⟩
    simp only [hq', hk', hc, hr', ← EReal.coe_mul, ← coe_sum, ← EReal.coe_add]

/-! ## A row's softmax -/

section Row

variable {ι : Type} [Fintype ι]

/-- The row's maximum, folded from -inf. -/
def rowMax (f : ι → EReal) : EReal := Finset.univ.fold max (Ideal.ofBits .f32 0xFF800000#32) f

/-- The tiled program's normalised row: exp (f - max) times the reciprocal of its sum. -/
def attnK (f : ι → EReal) (k : ι) : EReal :=
  Ideal.exp (f k - rowMax f) * Ideal.div (Ideal.ofBits .f32 0x3F800000#32) (∑ j, Ideal.exp (f j - rowMax f))

/-- The plain program's: the maximum taken once more against -inf, the sum started from 0, a quotient. -/
def attnR (f : ι → EReal) (k : ι) : EReal :=
  Ideal.div (Ideal.exp (f k - max (Ideal.ofBits .f32 0xFF800000#32) (rowMax f)))
    (Ideal.ofBits .f32 0x00000000#32 + ∑ j, Ideal.exp (f j - max (Ideal.ofBits .f32 0xFF800000#32) (rowMax f)))

/-- The maximum of a nonempty row of reals is a real. -/
theorem rowMax_real [Nonempty ι] (f : ι → EReal) (hf : ∀ k, ∃ x : ℝ, f k = (x : EReal)) :
    ∃ M : ℝ, rowMax f = (M : EReal) := by
  have hlt : rowMax f < ⊤ := by
    unfold rowMax
    rw [Finset.fold_max_lt, negInf_eq]
    refine ⟨bot_lt_top, fun k _ => ?_⟩
    obtain ⟨x, hx⟩ := hf k
    rw [hx]; exact EReal.coe_lt_top x
  have hgt : ⊥ < rowMax f := by
    unfold rowMax
    rw [Finset.lt_fold_max]
    obtain ⟨k⟩ := (inferInstance : Nonempty ι)
    obtain ⟨x, hx⟩ := hf k
    exact Or.inr ⟨k, Finset.mem_univ k, by rw [hx]; exact EReal.bot_lt_coe x⟩
  exact ⟨(rowMax f).toReal, (EReal.coe_toReal hlt.ne hgt.ne').symm⟩

/-- On a nonempty row of reals the two normalisations agree: the row sum is a positive real. -/
theorem attnK_eq_attnR [Nonempty ι] (f : ι → EReal) (hf : ∀ k, ∃ x : ℝ, f k = (x : EReal)) (k : ι) :
    attnK f k = attnR f k := by
  obtain ⟨M, hM⟩ := rowMax_real f hf
  choose f' hf' using hf
  unfold attnK attnR
  rw [hM, negInf_eq, max_bot_left, Ideal.ofBits_zero_f32, zero_add, one_eq]
  have he : ∀ j, Ideal.exp (f j - (M : EReal)) = ((Real.exp (f' j - M) : ℝ) : EReal) := fun j => by
    rw [hf' j, ← EReal.coe_sub]; rfl
  simp only [he, ← coe_sum]
  have hpos : (0 : ℝ) < ∑ j, Real.exp (f' j - M) :=
    Finset.sum_pos (fun j _ => Real.exp_pos _) Finset.univ_nonempty
  rw [Ideal.div_coe hpos.ne', Ideal.div_coe hpos.ne', one_mul]

end Row

end Cert.Attn

end
-- ==== Proof.AttnArrays.lean ====
/-
  The attention of AttnSpec laid over the programs' arrays: queries, keys and values of shape
  [4, 8, 2048, 32] (batch, head, position, feature), mask and bias of shape [4, 8, 2048, 2048]
  (batch, head, query position, key position).
  Score (b, h, r, k) pairs query row (b, h, r) with key row (b, h, k); context (b, h, r, d) is the
  normalised score row (b, h, r) against column d of value block (b, h).
  Each array is stated in the tiled program's spelling (K) and in the plain program's (R), and the
  two are one array when queries, keys and bias are real.
-/
import proofs.«408671_j7799660609952_3_alg».proof.Proof.AttnSpec

noncomputable section

namespace Cert.Attn

open Idealize.ShloMosaic Idealize.ShloMosaic.ValueIdx

abbrev QS : Shape := ⟨4, ![4, 8, 2048, 32]⟩
abbrev SS : Shape := ⟨4, ![4, 8, 2048, 2048]⟩

/-! ## An index's four coordinates, each in its own literal range -/

def qb (i : QS.Idx) : Fin 4 := ⟨(i 0).val, (i 0).isLt⟩
def qh (i : QS.Idx) : Fin 8 := ⟨(i 1).val, (i 1).isLt⟩
def qr (i : QS.Idx) : Fin 2048 := ⟨(i 2).val, (i 2).isLt⟩
def qd (i : QS.Idx) : Fin 32 := ⟨(i 3).val, (i 3).isLt⟩
def sb (i : SS.Idx) : Fin 4 := ⟨(i 0).val, (i 0).isLt⟩
def sh (i : SS.Idx) : Fin 8 := ⟨(i 1).val, (i 1).isLt⟩
def sr (i : SS.Idx) : Fin 2048 := ⟨(i 2).val, (i 2).isLt⟩
def sk (i : SS.Idx) : Fin 2048 := ⟨(i 3).val, (i 3).isLt⟩

theorem qb_val (i : QS.Idx) : (qb i).val = (i 0).val := rfl
theorem qh_val (i : QS.Idx) : (qh i).val = (i 1).val := rfl
theorem qr_val (i : QS.Idx) : (qr i).val = (i 2).val := rfl
theorem qd_val (i : QS.Idx) : (qd i).val = (i 3).val := rfl
theorem sb_val (i : SS.Idx) : (sb i).val = (i 0).val := rfl
theorem sh_val (i : SS.Idx) : (sh i).val = (i 1).val := rfl
theorem sr_val (i : SS.Idx) : (sr i).val = (i 2).val := rfl
theorem sk_val (i : SS.Idx) : (sk i).val = (i 3).val := rfl

/-- Row (b, h, r) of a [4, 8, 2048, 32] array: its 32 features. -/
def qrow (A : QS.Idx → EReal) (b : Fin 4) (h : Fin 8) (r : Fin 2048) : Fin 32 → EReal :=
  fun d => A (ix4 b h r d)

/-- Score row (b, h, r), tiled spelling, the mask an array of 32-bit words. -/
def rowK (Q K : QS.Idx → EReal) (W : SS.Idx → BitVec 32) (R : SS.Idx → EReal)
    (b : Fin 4) (h : Fin 8) (r : Fin 2048) : Fin 2048 → EReal :=
  fun k => scoreK (qrow Q b h r) (qrow K b h k) (W (ix4 b h r k)) (R (ix4 b h r k))

/-- Score row (b, h, r), plain spelling, the mask an array of bits. -/
def rowR (Q K : QS.Idx → EReal) (M : SS.Idx → BitVec 1) (R : SS.Idx → EReal)
    (b : Fin 4) (h : Fin 8) (r : Fin 2048) : Fin 2048 → EReal :=
  fun k => scoreR (qrow Q b h r) (qrow K b h k) (M (ix4 b h r k)) (R (ix4 b h r k))

/-- The score array, tiled spelling. -/
def scoresK (Q K : QS.Idx → EReal) (W : SS.Idx → BitVec 32) (R : SS.Idx → EReal) : SS.Idx → EReal :=
  fun i => rowK Q K W R (sb i) (sh i) (sr i) (sk i)

/-- The score array, plain spelling. -/
def scoresR (Q K : QS.Idx → EReal) (M : SS.Idx → BitVec 1) (R : SS.Idx → EReal) : SS.Idx → EReal :=
  fun i => rowR Q K M R (sb i) (sh i) (sr i) (sk i)

/-- The context array, tiled spelling. -/
def ctxK (Q K V : QS.Idx → EReal) (W : SS.Idx → BitVec 32) (R : SS.Idx → EReal) : QS.Idx → EReal :=
  fun i => ∑ k : Fin 2048, attnK (rowK Q K W R (qb i) (qh i) (qr i)) k * V (ix4 (qb i) (qh i) k (qd i))

/-- The context array, plain spelling. -/
def ctxR (Q K V : QS.Idx → EReal) (M : SS.Idx → BitVec 1) (R : SS.Idx → EReal) : QS.Idx → EReal :=
  fun i => ∑ k : Fin 2048, attnR (rowR Q K M R (qb i) (qh i) (qr i)) k * V (ix4 (qb i) (qh i) k (qd i))

/-- A score row in the two spellings is one row when queries and keys are real. -/
theorem rowK_eq_rowR (Q K : QS.Idx → EReal) (M : SS.Idx → BitVec 1) (R : SS.Idx → EReal)
    (hQ : ∀ i, ∃ x : ℝ, Q i = (x : EReal)) (hK : ∀ i, ∃ x : ℝ, K i = (x : EReal))
    (b : Fin 4) (h : Fin 8) (r : Fin 2048) :
    rowK Q K (fun i => (M i).setWidth 32) R b h r = rowR Q K M R b h r :=
  funext fun k => scoreK_eq_scoreR _ _ _ _ (fun d => hQ _) (fun d => hK _)

/-- A plain-spelling score row of real operands is a row of reals. -/
theorem rowR_real (Q K : QS.Idx → EReal) (M : SS.Idx → BitVec 1) (R : SS.Idx → EReal)
    (hQ : ∀ i, ∃ x : ℝ, Q i = (x : EReal)) (hK : ∀ i, ∃ x : ℝ, K i = (x : EReal))
    (hR : ∀ i, ∃ x : ℝ, R i = (x : EReal)) (b : Fin 4) (h : Fin 8) (r : Fin 2048) (k : Fin 2048) :
    ∃ x : ℝ, rowR Q K M R b h r k = (x : EReal) :=
  scoreR_real _ _ _ _ (fun d => hQ _) (fun d => hK _) (hR _)

/-- The score arrays agree. -/
theorem scoresK_eq_scoresR (Q K : QS.Idx → EReal) (M : SS.Idx → BitVec 1) (R : SS.Idx → EReal)
    (hQ : ∀ i, ∃ x : ℝ, Q i = (x : EReal)) (hK : ∀ i, ∃ x : ℝ, K i = (x : EReal)) :
    scoresK Q K (fun i => (M i).setWidth 32) R = scoresR Q K M R :=
  funext fun i => congrFun (rowK_eq_rowR Q K M R hQ hK _ _ _) _

/-- The context arrays agree: the score rows are real, so the two normalisations are one. -/
theorem ctxK_eq_ctxR (Q K V : QS.Idx → EReal) (M : SS.Idx → BitVec 1) (R : SS.Idx → EReal)
    (hQ : ∀ i, ∃ x : ℝ, Q i = (x : EReal)) (hK : ∀ i, ∃ x : ℝ, K i = (x : EReal))
    (hR : ∀ i, ∃ x : ℝ, R i = (x : EReal)) :
    ctxK Q K V (fun i => (M i).setWidth 32) R = ctxR Q K V M R := by
  funext i
  unfold ctxK ctxR
  rw [rowK_eq_rowR Q K M R hQ hK]
  exact Finset.sum_congr rfl fun k _ =>
    congrArg (· * V (ix4 (qb i) (qh i) k (qd i)))
      (attnK_eq_attnR (rowR Q K M R (qb i) (qh i) (qr i)) (rowR_real Q K M R hQ hK hR _ _ _) k)

end Cert.Attn

end
-- ==== Proof.KernelPay.lean ====
/-
  What one grid step of the tiled program computes, entry by entry, from the blocks it loads:
  x0 a [512, 32] block of queries, x1 the [2048, 32] keys, x2 the [2048, 32] values, x3 the
  [512, 2048] block of the bias and x4 the same block of the mask as 32-bit words, each with two
  leading unit axes.
  Its score block at (r, k) is AttnSpec's scoreK of query row r, key row k, the mask word and the
  bias there; its context block at (r, d) is the normalised score row r against column d of x2.
-/
import proofs.«408671_j7799660609952_3_alg».proof.Proof.Gen.KernelIdeal.Skeleton
import proofs.«408671_j7799660609952_3_alg».proof.Proof.AttnSpec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Pay

open Idealize.ShloMosaic Idealize.ShloMosaic.ValueIdx Cert.KernelIdeal Cert.KernelIdeal.Gen

/-! ## Layout operations read at an index -/

section Layout
variable {α : Type}

/-- A [1, 1, a, b] array cast to [a, b] reads, at (i, j), the operand at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a, b] array cast to [1, 1, a, b] reads, at (u, v, i, j), the operand at (i, j). -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    simp only [hu, hv, Nat.zero_mul, Nat.zero_add])

/-- An [a] array cast to the column [a, 1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two products read at an index -/

/-- The operand indices of the score product q kT at output (i0, i1) and contraction index q. -/
theorem lhs_qk_0 (i : S512x2048.Idx) (q : dot_S512x32_S2048x32_S512x2048_1_1_0_0_n_n.contr.Idx) :
    (dot_S512x32_S2048x32_S512x2048_1_1_0_0_n_n.lhsIdx i q 0).val = (i 0).val := by
  unfold DotDims.lhsIdx
  rw [dif_neg (show ¬(0 : Fin S512x32.rank) ∈ dot_S512x32_S2048x32_S512x2048_1_1_0_0_n_n.lhsBatch by decide), dif_pos (show (0 : Fin S512x32.rank) ∈ dot_S512x32_S2048x32_S512x2048_1_1_0_0_n_n.lhsNonContracting by decide)]
  rfl
theorem lhs_qk_1 (i : S512x2048.Idx) (q : dot_S512x32_S2048x32_S512x2048_1_1_0_0_n_n.contr.Idx) :
    (dot_S512x32_S2048x32_S512x2048_1_1_0_0_n_n.lhsIdx i q 1).val = (q ⟨0, by decide⟩).val :=
  dot_S512x32_S2048x32_S512x2048_1_1_0_0_n_n.lhsIdx_val_of_single rfl i q
theorem rhs_qk_0 (i : S512x2048.Idx) (q : dot_S512x32_S2048x32_S512x2048_1_1_0_0_n_n.contr.Idx) :
    (dot_S512x32_S2048x32_S512x2048_1_1_0_0_n_n.rhsIdx i q 0).val = (i 1).val := by
  unfold DotDims.rhsIdx
  rw [dif_neg (show ¬(0 : Fin S2048x32.rank) ∈ dot_S512x32_S2048x32_S512x2048_1_1_0_0_n_n.rhsBatch by decide), dif_pos (show (0 : Fin S2048x32.rank) ∈ dot_S512x32_S2048x32_S512x2048_1_1_0_0_n_n.rhsNonContracting by decide)]
  rfl
theorem rhs_qk_1 (i : S512x2048.Idx) (q : dot_S512x32_S2048x32_S512x2048_1_1_0_0_n_n.contr.Idx) :
    (dot_S512x32_S2048x32_S512x2048_1_1_0_0_n_n.rhsIdx i q 1).val = (q ⟨0, by decide⟩).val :=
  dot_S512x32_S2048x32_S512x2048_1_1_0_0_n_n.rhsIdx_val_of_single rfl i q

/-- The score product into a zero accumulator: entry (r, k) is the inner product of row r of the
    left operand with row k of the right. -/
theorem matmul_qk_apply (A : FVec Ideal S512x32 .f32) (B : FVec Ideal S2048x32 .f32) (r : Fin 512) (k : Fin 2048) :
    matmul dot_S512x32_S2048x32_S512x2048_1_1_0_0_n_n none A B (constant (F := Ideal) S512x2048 .f32 0x00000000#32) (ix2 r k)
      = ∑ d : Fin 32, A (ix2 r d) * B (ix2 k d) := by
  refine (Ideal.matmul_constant_zero_apply dot_S512x32_S2048x32_S512x2048_1_1_0_0_n_n none A B (ix2 r k)).trans ?_
  rw [← Equiv.sum_comp (ValueIdx.contrEquiv1 dot_S512x32_S2048x32_S512x2048_1_1_0_0_n_n 32 rfl rfl).symm]
  refine Finset.sum_congr rfl fun d _ => ?_
  have hk := ValueIdx.contrEquiv1_symm_val dot_S512x32_S2048x32_S512x2048_1_1_0_0_n_n 32 rfl rfl d
  have el : dot_S512x32_S2048x32_S512x2048_1_1_0_0_n_n.lhsIdx (ix2 r k) ((ValueIdx.contrEquiv1 dot_S512x32_S2048x32_S512x2048_1_1_0_0_n_n 32 rfl rfl).symm d) = ix2 r d := funext fun a => Fin.ext (by
    match a with
    | ⟨0, _⟩ => exact lhs_qk_0 _ _
    | ⟨1, _⟩ => exact (lhs_qk_1 _ _).trans hk)
  have er : dot_S512x32_S2048x32_S512x2048_1_1_0_0_n_n.rhsIdx (ix2 r k) ((ValueIdx.contrEquiv1 dot_S512x32_S2048x32_S512x2048_1_1_0_0_n_n 32 rfl rfl).symm d) = ix2 k d := funext fun a => Fin.ext (by
    match a with
    | ⟨0, _⟩ => exact rhs_qk_0 _ _
    | ⟨1, _⟩ => exact (rhs_qk_1 _ _).trans hk)
  rw [el, er]

/-- The operand indices of the context product p v at output (i0, i1) and contraction index q. -/
theorem lhs_pv_0 (i : S512x32.Idx) (q : dot_S512x2048_S2048x32_S512x32_1_0_0_1_n_n.contr.Idx) :
    (dot_S512x2048_S2048x32_S512x32_1_0_0_1_n_n.lhsIdx i q 0).val = (i 0).val := by
  unfold DotDims.lhsIdx
  rw [dif_neg (show ¬(0 : Fin S512x2048.rank) ∈ dot_S512x2048_S2048x32_S512x32_1_0_0_1_n_n.lhsBatch by decide), dif_pos (show (0 : Fin S512x2048.rank) ∈ dot_S512x2048_S2048x32_S512x32_1_0_0_1_n_n.lhsNonContracting by decide)]
  rfl
theorem lhs_pv_1 (i : S512x32.Idx) (q : dot_S512x2048_S2048x32_S512x32_1_0_0_1_n_n.contr.Idx) :
    (dot_S512x2048_S2048x32_S512x32_1_0_0_1_n_n.lhsIdx i q 1).val = (q ⟨0, by decide⟩).val :=
  dot_S512x2048_S2048x32_S512x32_1_0_0_1_n_n.lhsIdx_val_of_single rfl i q
theorem rhs_pv_0 (i : S512x32.Idx) (q : dot_S512x2048_S2048x32_S512x32_1_0_0_1_n_n.contr.Idx) :
    (dot_S512x2048_S2048x32_S512x32_1_0_0_1_n_n.rhsIdx i q 0).val = (q ⟨0, by decide⟩).val :=
  dot_S512x2048_S2048x32_S512x32_1_0_0_1_n_n.rhsIdx_val_of_single rfl i q
theorem rhs_pv_1 (i : S512x32.Idx) (q : dot_S512x2048_S2048x32_S512x32_1_0_0_1_n_n.contr.Idx) :
    (dot_S512x2048_S2048x32_S512x32_1_0_0_1_n_n.rhsIdx i q 1).val = (i 1).val := by
  unfold DotDims.rhsIdx
  rw [dif_neg (show ¬(1 : Fin S2048x32.rank) ∈ dot_S512x2048_S2048x32_S512x32_1_0_0_1_n_n.rhsBatch by decide), dif_pos (show (1 : Fin S2048x32.rank) ∈ dot_S512x2048_S2048x32_S512x32_1_0_0_1_n_n.rhsNonContracting by decide)]
  rfl

/-- The context product into a zero accumulator: entry (r, d) is row r of the left operand against
    column d of the right. -/
theorem matmul_pv_apply {φ₁ φ₂ : FTy} (P : FVec Ideal S512x2048 φ₁) (V : FVec Ideal S2048x32 φ₂) (r : Fin 512) (d : Fin 32) :
    matmul dot_S512x2048_S2048x32_S512x32_1_0_0_1_n_n none P V (constant (F := Ideal) S512x32 .f32 0x00000000#32) (ix2 r d)
      = ∑ k : Fin 2048, P (ix2 r k) * V (ix2 k d) := by
  refine (Ideal.matmul_constant_zero_apply dot_S512x2048_S2048x32_S512x32_1_0_0_1_n_n none P V (ix2 r d)).trans ?_
  rw [← Equiv.sum_comp (ValueIdx.contrEquiv1 dot_S512x2048_S2048x32_S512x32_1_0_0_1_n_n 2048 rfl rfl).symm]
  refine Finset.sum_congr rfl fun k _ => ?_
  have hk := ValueIdx.contrEquiv1_symm_val dot_S512x2048_S2048x32_S512x32_1_0_0_1_n_n 2048 rfl rfl k
  have el : dot_S512x2048_S2048x32_S512x32_1_0_0_1_n_n.lhsIdx (ix2 r d) ((ValueIdx.contrEquiv1 dot_S512x2048_S2048x32_S512x32_1_0_0_1_n_n 2048 rfl rfl).symm k) = ix2 r k := funext fun a => Fin.ext (by
    match a with
    | ⟨0, _⟩ => exact lhs_pv_0 _ _
    | ⟨1, _⟩ => exact (lhs_pv_1 _ _).trans hk)
  have er : dot_S512x2048_S2048x32_S512x32_1_0_0_1_n_n.rhsIdx (ix2 r d) ((ValueIdx.contrEquiv1 dot_S512x2048_S2048x32_S512x32_1_0_0_1_n_n 2048 rfl rfl).symm k) = ix2 k d := funext fun a => Fin.ext (by
    match a with
    | ⟨0, _⟩ => exact (rhs_pv_0 _ _).trans hk
    | ⟨1, _⟩ => exact rhs_pv_1 _ _)
  rw [el, er]

/-! ## The row reductions read at an index -/

/-- The index a reduction along the keys inserts at row r: column k of row r. -/
theorem lift_row (r : Fin 512) (k : Fin 2048) :
    reduces_S512x2048_S512.lift (ix1 r) k = ix2 r k :=
  funext fun a => Fin.ext (by match a with | ⟨0, _⟩ => rfl | ⟨1, _⟩ => rfl)

/-- The maximum along the keys, folded from -inf, read at row r. -/
theorem rowMax_apply (v : FVec Ideal S512x2048 .f32) (r : Fin 512) :
    multiReduction .maximumf [1] S512 v 0xFF800000#32 reduces_S512x2048_S512 (.inl rfl) rfl (ix1 r)
      = Cert.Attn.rowMax fun k : Fin 2048 => v (ix2 r k) := by
  refine (Ideal.multiReduction_maximumf_single v 0xFF800000#32 reduces_S512x2048_S512 (.inl rfl) rfl (ix1 r)).trans ?_
  unfold Cert.Attn.rowMax
  exact congrArg (Finset.fold max (Ideal.ofBits .f32 0xFF800000#32) · (Finset.univ : Finset (Fin 2048)))
    (funext fun k => congrArg v (lift_row r k))

/-- The sum along the keys read at row r. -/
theorem rowSum_apply (v : FVec Ideal S512x2048 .f32) (r : Fin 512) :
    multiReduction .add [1] S512 v 0x00000000#32 reduces_S512x2048_S512 (.inl rfl) rfl (ix1 r)
      = ∑ k : Fin 2048, v (ix2 r k) := by
  refine (Ideal.multiReduction_add_single v 0x00000000#32 reduces_S512x2048_S512 (.inl rfl) rfl (ix1 r)).trans ?_
  exact Finset.sum_congr rfl fun k _ => congrArg v (lift_row r k)

/-! ## The step's arithmetic over arbitrary operands -/

/-- One score from its operands' entries: the mask word compared with zero selects the fill value
    or the scaled inner product plus the bias. -/
theorem score_apply (A : FVec Ideal S512x32 .f32) (B : FVec Ideal S2048x32 .f32) (C : FVec Ideal S512x2048 .f32)
    (W : IVec S512x2048 32) (r : Fin 512) (k : Fin 2048) (q kk : Fin 32 → EReal) (w : BitVec 32) (c : EReal)
    (hA : ∀ d, A (ix2 r d) = q d) (hB : ∀ d, B (ix2 k d) = kk d) (hW : W (ix2 r k) = w) (hC : C (ix2 r k) = c) :
    select (cmpi .ne W (constantI S512x2048 32 0#32)) (broadcast S512x2048 (Scalar.ofBits (F := Ideal) .f32 0xCE6E6B28#32))
        (addf (matmul dot_S512x32_S2048x32_S512x2048_1_1_0_0_n_n none
          (mulf A (broadcast S512x32 (Scalar.ofBits (F := Ideal) .f32 0x3E3504F3#32))) B
          (constant (F := Ideal) S512x2048 .f32 0x00000000#32)) C) (ix2 r k)
      = Cert.Attn.scoreK q kk w c := by
  show Scalar.select (IntOp.cmpi .ne (W (ix2 r k)) 0#32) (Ideal.ofBits .f32 0xCE6E6B28#32)
      (matmul dot_S512x32_S2048x32_S512x2048_1_1_0_0_n_n none
          (mulf A (broadcast S512x32 (Scalar.ofBits (F := Ideal) .f32 0x3E3504F3#32))) B
          (constant (F := Ideal) S512x2048 .f32 0x00000000#32) (ix2 r k) + C (ix2 r k)) = _
  rw [matmul_qk_apply, hW, hC]
  unfold Cert.Attn.scoreK
  refine congrArg (fun s => Scalar.select (IntOp.cmpi .ne w 0#32) (Ideal.ofBits .f32 0xCE6E6B28#32) (s + c))
    (Finset.sum_congr rfl fun d _ => ?_)
  show (A (ix2 r d) * Ideal.ofBits .f32 0x3E3504F3#32) * B (ix2 k d) = _
  rw [hA, hB]

/-- exp of a block less its row maxima, read at (r, k). -/
theorem expSub_apply (v : FVec Ideal S512x2048 .f32) (r : Fin 512) (k : Fin 2048) :
    exp (subf v (broadcastTo S512x2048 (shapeCast S512x1
        (multiReduction .maximumf [1] S512 v 0xFF800000#32 reduces_S512x2048_S512 (.inl rfl) rfl)
        shapeCasts_S512_S512x1) broadcasts_S512x1_S512x2048)) (ix2 r k)
      = Ideal.exp (v (ix2 r k) - Cert.Attn.rowMax fun j : Fin 2048 => v (ix2 r j)) := by
  show Ideal.exp (v (ix2 r k) - broadcastTo S512x2048 (shapeCast S512x1
        (multiReduction .maximumf [1] S512 v 0xFF800000#32 reduces_S512x2048_S512 (.inl rfl) rfl)
        shapeCasts_S512_S512x1) broadcasts_S512x1_S512x2048 (ix2 r k)) = _
  rw [broadcastTo_a1_ab_apply, shapeCast_a_a1_apply, rowMax_apply]

/-- The context from the values V, the unnormalised weights P and the row sums L: row r of P,
    each entry times the reciprocal of the row's sum, against column d of V. -/
theorem ctx_apply (V : FVec Ideal S2048x32 .f32) (P : FVec Ideal S512x2048 .f32) (L : FVec Ideal S512 .f32)
    (r : Fin 512) (d : Fin 32) :
    k0_pay1 (F := Ideal) V P L (ix4 (0 : Fin 1) (0 : Fin 1) r d)
      = ∑ k : Fin 2048, (P (ix2 r k) * Ideal.div (Ideal.ofBits .f32 0x3F800000#32) (L (ix1 r))) * V (ix2 k d) := by
  unfold k0_pay1
  refine (shapeCast_ab_11ab_apply _ _ (0 : Fin 1) (0 : Fin 1) r d).trans ?_
  refine (matmul_pv_apply _ _ r d).trans ?_
  refine Finset.sum_congr rfl fun k _ => ?_
  show (P (ix2 r k) * broadcastTo S512x2048 (divf (broadcast S512x1 (Scalar.ofBits (F := Ideal) .f32 0x3F800000#32))
      (shapeCast S512x1 L shapeCasts_S512_S512x1)) broadcasts_S512x1_S512x2048 (ix2 r k)) * V (ix2 k d) = _
  rw [broadcastTo_a1_ab_apply]
  show (P (ix2 r k) * Ideal.div (Ideal.ofBits .f32 0x3F800000#32)
      (shapeCast S512x1 L shapeCasts_S512_S512x1 (ix2 r (0 : Fin 1)))) * V (ix2 k d) = _
  rw [shapeCast_a_a1_apply]

/-- The score the step computes at row r, key k of its block. -/
def blkScore (x0 : Vec Ideal S1x1x512x32 .f32) (x1 : Vec Ideal S1x1x2048x32 .f32)
    (x3 : Vec Ideal S1x1x512x2048 .f32) (x4 : Vec Ideal S1x1x512x2048 .i32) (r : Fin 512) (k : Fin 2048) : EReal :=
  Cert.Attn.scoreK (fun d => x0 (ix4 (0 : Fin 1) (0 : Fin 1) r d)) (fun d => x1 (ix4 (0 : Fin 1) (0 : Fin 1) k d))
    (x4 (ix4 (0 : Fin 1) (0 : Fin 1) r k)) (x3 (ix4 (0 : Fin 1) (0 : Fin 1) r k))

/-- The masked, biased, scaled product the step stores as scores, read at (r, k). -/
theorem pay3_apply (x0 : Vec Ideal S1x1x512x32 .f32) (x1 : Vec Ideal S1x1x2048x32 .f32)
    (x3 : Vec Ideal S1x1x512x2048 .f32) (x4 : Vec Ideal S1x1x512x2048 .i32) (r : Fin 512) (k : Fin 2048) :
    k0_pay3 (F := Ideal) x0 x1 x3 x4 (ix2 r k) = blkScore x0 x1 x3 x4 r k := by
  unfold k0_pay3 blkScore
  exact score_apply _ _ _ _ r k _ _ _ _
    (fun d => shapeCast_11ab_ab_apply x0 _ r d) (fun d => shapeCast_11ab_ab_apply x1 _ k d)
    (shapeCast_11ab_ab_apply x4 _ r k) (shapeCast_11ab_ab_apply x3 _ r k)

/-- The unnormalised weight the step keeps, read at (r, k): exp of the score less its row's maximum. -/
theorem pay5_apply (x0 : Vec Ideal S1x1x512x32 .f32) (x1 : Vec Ideal S1x1x2048x32 .f32)
    (x3 : Vec Ideal S1x1x512x2048 .f32) (x4 : Vec Ideal S1x1x512x2048 .i32) (r : Fin 512) (k : Fin 2048) :
    k0_pay5 (F := Ideal) x0 x1 x3 x4 (ix2 r k)
      = Ideal.exp (blkScore x0 x1 x3 x4 r k - Cert.Attn.rowMax (blkScore x0 x1 x3 x4 r)) := by
  have e : (fun j : Fin 2048 => k0_pay3 (F := Ideal) x0 x1 x3 x4 (ix2 r j)) = blkScore x0 x1 x3 x4 r :=
    funext fun j => pay3_apply x0 x1 x3 x4 r j
  unfold k0_pay5
  refine (expSub_apply (k0_pay3 (F := Ideal) x0 x1 x3 x4) r k).trans ?_
  rw [e, pay3_apply]

/-- The row sums the step keeps, read at r: the sum of the row's unnormalised weights. -/
theorem pay6_apply (x0 : Vec Ideal S1x1x512x32 .f32) (x1 : Vec Ideal S1x1x2048x32 .f32)
    (x3 : Vec Ideal S1x1x512x2048 .f32) (x4 : Vec Ideal S1x1x512x2048 .i32) (r : Fin 512) :
    k0_pay6 (F := Ideal) x0 x1 x3 x4 (ix1 r)
      = ∑ k : Fin 2048, Ideal.exp (blkScore x0 x1 x3 x4 r k - Cert.Attn.rowMax (blkScore x0 x1 x3 x4 r)) := by
  unfold k0_pay6
  refine (rowSum_apply (k0_pay5 (F := Ideal) x0 x1 x3 x4) r).trans ?_
  exact Finset.sum_congr rfl fun k _ => pay5_apply x0 x1 x3 x4 r k

/-- The context the step stores, read at (r, d). -/
theorem pay1_apply (x0 : Vec Ideal S1x1x512x32 .f32) (x1 x2 : Vec Ideal S1x1x2048x32 .f32)
    (x3 : Vec Ideal S1x1x512x2048 .f32) (x4 : Vec Ideal S1x1x512x2048 .i32) (r : Fin 512) (d : Fin 32) :
    k0_pay1 (F := Ideal) (k0_pay2 x2) (k0_pay5 x0 x1 x3 x4) (k0_pay6 x0 x1 x3 x4) (ix4 (0 : Fin 1) (0 : Fin 1) r d)
      = ∑ k : Fin 2048, Cert.Attn.attnK (blkScore x0 x1 x3 x4 r) k * x2 (ix4 (0 : Fin 1) (0 : Fin 1) k d) := by
  refine (ctx_apply _ _ _ r d).trans ?_
  refine Finset.sum_congr rfl fun k _ => ?_
  have hV : k0_pay2 (F := Ideal) x2 (ix2 k d) = x2 (ix4 (0 : Fin 1) (0 : Fin 1) k d) :=
    shapeCast_11ab_ab_apply x2 _ k d
  rw [pay5_apply, pay6_apply, hV]
  rfl

end Cert.KernelIdeal.Pay

end
-- ==== Proof.KernelBlocks.lean ====
/-
  From what each grid step writes back to the two result arrays whole.
  The grid is (batch, head, query tile) = 4 x 8 x 4; step (b, h, q) reads query rows 512 q .. 512 q + 511
  of (b, h), all 2048 keys and values of (b, h), and the matching 512 x 2048 tiles of bias and mask, and
  writes the same tile of the scores and rows 512 q .. 512 q + 511 of the context. The tiles of either
  result are disjoint and fill it, so each result array ends as ONE function of the argument arrays:
  AttnArrays' scoresK and ctxK.
-/
import proofs.«408671_j7799660609952_3_alg».proof.Proof.Gen.KernelIdeal.Value
import proofs.«408671_j7799660609952_3_alg».proof.Proof.KernelPay
import proofs.«408671_j7799660609952_3_alg».proof.Proof.AttnArrays
import Idealize.ShloMosaic.Lib.Pipeline.Value
import Idealize.ShloMosaic.Lib.StableHlo.Run
import Idealize.ShloMosaic.Lib.Tactic

set_option maxRecDepth 16384

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value

variable (m : (ℓ : Loc nD τ sig) → Buf (Elt Ideal) ℓ) (ρ : Dev nD → PrngReg)

theorem hz : (![0, 0, 0, 0] : Fin 4 → Nat) = fun _ => 0 := funext fun a => by fin_cases a <;> rfl

/-! ## The index maps over the grid -/

/-- Queries, bias, mask and context move with the score tile; keys and values stay at the head's block. -/
theorem idx_facts : ∀ t : Fin cfg0.N,
    win0_0.index t = win0_5.index t ∧ win0_3.index t = win0_5.index t ∧ win0_4.index t = win0_5.index t
    ∧ win0_6.index t = win0_5.index t
    ∧ win0_1.index t = ![win0_5.index t (0 : Fin 4), win0_5.index t (1 : Fin 4), 0, 0]
    ∧ win0_2.index t = ![win0_5.index t (0 : Fin 4), win0_5.index t (1 : Fin 4), 0, 0]
    ∧ win0_5.index t (0 : Fin 4) < 4 ∧ win0_5.index t (1 : Fin 4) < 8 ∧ win0_5.index t (2 : Fin 4) < 4
    ∧ win0_5.index t (3 : Fin 4) = 0 :=
  (by decide +kernel : ∀ t : Fin grid0.N, _)

/-- Every (batch, head, query tile) is some step's. -/
theorem idx_onto : ∀ (b : Fin 4) (h : Fin 8) (q : Fin 4), ∃ t : Fin cfg0.N, win0_5.index t = ![b.val, h.val, q.val, 0] :=
  (by decide +kernel : ∀ (b : Fin 4) (h : Fin 8) (q : Fin 4), ∃ t : Fin grid0.N, win0_5.index t = ![b.val, h.val, q.val, 0])

/-! ## Membership in a step's tile, and the cover -/

theorem mem_blk5 (t : Fin cfg0.N) (i : S4x8x2048x2048.Idx) :
    i ∈ ((cfg0.win 5).blk t).view.set ↔ ∀ a : Fin 4, win0_5.index t a * S1x1x512x2048.size a ≤ (i a).val ∧ (i a).val < win0_5.index t a * S1x1x512x2048.size a + S1x1x512x2048.size a := by
  show i ∈ ((View.whole main_v1_0).slice (win0_5.rect t)).set ↔ _
  rw [View.set_slice_whole, Rect.mem_set_unit]
  exact Iff.rfl

theorem mem_blk6 (t : Fin cfg0.N) (i : S4x8x2048x32.Idx) :
    i ∈ ((cfg0.win 6).blk t).view.set ↔ ∀ a : Fin 4, win0_6.index t a * S1x1x512x32.size a ≤ (i a).val ∧ (i a).val < win0_6.index t a * S1x1x512x32.size a + S1x1x512x32.size a := by
  show i ∈ ((View.whole main_v1_1).slice (win0_6.rect t)).set ↔ _
  rw [View.set_slice_whole, Rect.mem_set_unit]
  exact Iff.rfl

/-- The score tiles fill the score array: index (b, h, r, k) is in the tile of step (b, h, r / 512). -/
theorem cover5 (i : S4x8x2048x2048.Idx) : ∃ t : Fin cfg0.N, (cfg0.win 5).flush t = true ∧ i ∈ ((cfg0.win 5).blk t).view.set := by
  have h0 : (i 0).val < 4 := (i 0).isLt
  have h1 : (i 1).val < 8 := (i 1).isLt
  have h2 : (i 2).val < 2048 := (i 2).isLt
  have h3 : (i 3).val < 2048 := (i 3).isLt
  obtain ⟨t, ht⟩ := idx_onto ⟨(i 0).val, h0⟩ ⟨(i 1).val, h1⟩ ⟨(i 2).val / 512, by omega⟩
  have q0 : win0_5.index t (0 : Fin 4) = (i 0).val := congrFun ht 0
  have q1 : win0_5.index t (1 : Fin 4) = (i 1).val := congrFun ht 1
  have q2 : win0_5.index t (2 : Fin 4) = (i 2).val / 512 := congrFun ht 2
  have q3 : win0_5.index t (3 : Fin 4) = 0 := congrFun ht 3
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 512 ≤ (i 2).val ∧ (i 2).val < win0_5.index t (2 : Fin 4) * 512 + 512; omega
  | ⟨3, _⟩ => show win0_5.index t (3 : Fin 4) * 2048 ≤ (i 3).val ∧ (i 3).val < win0_5.index t (3 : Fin 4) * 2048 + 2048; omega

/-- The context tiles fill the context array. -/
theorem cover6 (i : S4x8x2048x32.Idx) : ∃ t : Fin cfg0.N, (cfg0.win 6).flush t = true ∧ i ∈ ((cfg0.win 6).blk t).view.set := by
  have h0 : (i 0).val < 4 := (i 0).isLt
  have h1 : (i 1).val < 8 := (i 1).isLt
  have h2 : (i 2).val < 2048 := (i 2).isLt
  have h3 : (i 3).val < 32 := (i 3).isLt
  obtain ⟨t, ht⟩ := idx_onto ⟨(i 0).val, h0⟩ ⟨(i 1).val, h1⟩ ⟨(i 2).val / 512, by omega⟩
  obtain ⟨-, -, -, e6, -⟩ := idx_facts t
  have q0 : win0_6.index t (0 : Fin 4) = (i 0).val := (congrFun e6 0).trans (congrFun ht 0)
  have q1 : win0_6.index t (1 : Fin 4) = (i 1).val := (congrFun e6 1).trans (congrFun ht 1)
  have q2 : win0_6.index t (2 : Fin 4) = (i 2).val / 512 := (congrFun e6 2).trans (congrFun ht 2)
  have q3 : win0_6.index t (3 : Fin 4) = 0 := (congrFun e6 3).trans (congrFun ht 3)
  refine ⟨t, flush0_6 t, ?_⟩
  rw [mem_blk6]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 1 ≤ (i 1).val ∧ (i 1).val < win0_6.index t (1 : Fin 4) * 1 + 1; omega
  | ⟨2, _⟩ => show win0_6.index t (2 : Fin 4) * 512 ≤ (i 2).val ∧ (i 2).val < win0_6.index t (2 : Fin 4) * 512 + 512; omega
  | ⟨3, _⟩ => show win0_6.index t (3 : Fin 4) * 32 ≤ (i 3).val ∧ (i 3).val < win0_6.index t (3 : Fin 4) * 32 + 32; omega

/-! ## A step's input blocks as entries of the arrays -/

/-- The query block of step t at (0, 0, r, d) is the query array at (b, h, 512 q + r, d). -/
theorem qblk_apply (c : Dev nD) (t : Fin cfg0.N) (x : S1x1x512x32.Idx) (i : S4x8x2048x32.Idx)
    (h0 : (i 0).val = win0_0.index t (0 : Fin 4)) (h1 : (i 1).val = win0_0.index t (1 : Fin 4))
    (h2 : (i 2).val = win0_0.index t (2 : Fin 4) * 512 + (x 2).val) (h3 : (i 3).val = win0_0.index t (3 : Fin 4) * 32 + (x 3).val) :
    (iblk m c 0 t : Vec Ideal S1x1x512x32 .f32) x = (V m c main_arg0 : S4x8x2048x32.Idx → EReal) i := by
  have hx0 : (x 0).val < 1 := (x 0).isLt
  have hx1 : (x 1).val < 1 := (x 1).isLt
  unfold iblk
  rw [View.read_apply]
  show V m c main_arg0 _ = V m c main_arg0 _
  congr 1
  funext a
  apply Fin.ext
  match a with
  | ⟨0, _⟩ => show win0_0.index t (0 : Fin 4) * 1 + 1 * (x 0).val = (i 0).val; omega
  | ⟨1, _⟩ => show win0_0.index t (1 : Fin 4) * 1 + 1 * (x 1).val = (i 1).val; omega
  | ⟨2, _⟩ => show win0_0.index t (2 : Fin 4) * 512 + 1 * (x 2).val = (i 2).val; omega
  | ⟨3, _⟩ => show win0_0.index t (3 : Fin 4) * 32 + 1 * (x 3).val = (i 3).val; omega

/-- The key block of step t at (0, 0, k, d) is the key array at (b, h, k, d). -/
theorem kblk_apply (c : Dev nD) (t : Fin cfg0.N) (x : S1x1x2048x32.Idx) (i : S4x8x2048x32.Idx)
    (h0 : (i 0).val = win0_1.index t (0 : Fin 4)) (h1 : (i 1).val = win0_1.index t (1 : Fin 4))
    (h2 : (i 2).val = win0_1.index t (2 : Fin 4) * 2048 + (x 2).val) (h3 : (i 3).val = win0_1.index t (3 : Fin 4) * 32 + (x 3).val) :
    (iblk m c 1 t : Vec Ideal S1x1x2048x32 .f32) x = (V m c main_arg1 : S4x8x2048x32.Idx → EReal) i := by
  have hx0 : (x 0).val < 1 := (x 0).isLt
  have hx1 : (x 1).val < 1 := (x 1).isLt
  unfold iblk
  rw [View.read_apply]
  show V m c main_arg1 _ = V m c main_arg1 _
  congr 1
  funext a
  apply Fin.ext
  match a with
  | ⟨0, _⟩ => show win0_1.index t (0 : Fin 4) * 1 + 1 * (x 0).val = (i 0).val; omega
  | ⟨1, _⟩ => show win0_1.index t (1 : Fin 4) * 1 + 1 * (x 1).val = (i 1).val; omega
  | ⟨2, _⟩ => show win0_1.index t (2 : Fin 4) * 2048 + 1 * (x 2).val = (i 2).val; omega
  | ⟨3, _⟩ => show win0_1.index t (3 : Fin 4) * 32 + 1 * (x 3).val = (i 3).val; omega

/-- The value block of step t at (0, 0, k, d) is the value array at (b, h, k, d). -/
theorem vblk_apply (c : Dev nD) (t : Fin cfg0.N) (x : S1x1x2048x32.Idx) (i : S4x8x2048x32.Idx)
    (h0 : (i 0).val = win0_2.index t (0 : Fin 4)) (h1 : (i 1).val = win0_2.index t (1 : Fin 4))
    (h2 : (i 2).val = win0_2.index t (2 : Fin 4) * 2048 + (x 2).val) (h3 : (i 3).val = win0_2.index t (3 : Fin 4) * 32 + (x 3).val) :
    (iblk m c 2 t : Vec Ideal S1x1x2048x32 .f32) x = (V m c main_arg2 : S4x8x2048x32.Idx → EReal) i := by
  have hx0 : (x 0).val < 1 := (x 0).isLt
  have hx1 : (x 1).val < 1 := (x 1).isLt
  unfold iblk
  rw [View.read_apply]
  show V m c main_arg2 _ = V m c main_arg2 _
  congr 1
  funext a
  apply Fin.ext
  match a with
  | ⟨0, _⟩ => show win0_2.index t (0 : Fin 4) * 1 + 1 * (x 0).val = (i 0).val; omega
  | ⟨1, _⟩ => show win0_2.index t (1 : Fin 4) * 1 + 1 * (x 1).val = (i 1).val; omega
  | ⟨2, _⟩ => show win0_2.index t (2 : Fin 4) * 2048 + 1 * (x 2).val = (i 2).val; omega
  | ⟨3, _⟩ => show win0_2.index t (3 : Fin 4) * 32 + 1 * (x 3).val = (i 3).val; omega

/-- The bias tile of step t at (0, 0, r, k) is the bias array at (b, h, 512 q + r, k). -/
theorem rblk_apply (c : Dev nD) (t : Fin cfg0.N) (x : S1x1x512x2048.Idx) (i : S4x8x2048x2048.Idx)
    (h0 : (i 0).val = win0_3.index t (0 : Fin 4)) (h1 : (i 1).val = win0_3.index t (1 : Fin 4))
    (h2 : (i 2).val = win0_3.index t (2 : Fin 4) * 512 + (x 2).val) (h3 : (i 3).val = win0_3.index t (3 : Fin 4) * 2048 + (x 3).val) :
    (iblk m c 3 t : Vec Ideal S1x1x512x2048 .f32) x = (V m c main_arg4 : S4x8x2048x2048.Idx → EReal) i := by
  have hx0 : (x 0).val < 1 := (x 0).isLt
  have hx1 : (x 1).val < 1 := (x 1).isLt
  unfold iblk
  rw [View.read_apply]
  show V m c main_arg4 _ = V m c main_arg4 _
  congr 1
  funext a
  apply Fin.ext
  match a with
  | ⟨0, _⟩ => show win0_3.index t (0 : Fin 4) * 1 + 1 * (x 0).val = (i 0).val; omega
  | ⟨1, _⟩ => show win0_3.index t (1 : Fin 4) * 1 + 1 * (x 1).val = (i 1).val; omega
  | ⟨2, _⟩ => show win0_3.index t (2 : Fin 4) * 512 + 1 * (x 2).val = (i 2).val; omega
  | ⟨3, _⟩ => show win0_3.index t (3 : Fin 4) * 2048 + 1 * (x 3).val = (i 3).val; omega

/-- The mask tile of step t, as words, at (0, 0, r, k) is the widened mask array at (b, h, 512 q + r, k). -/
theorem wblk_apply (c : Dev nD) (t : Fin cfg0.N) (x : S1x1x512x2048.Idx) (i : S4x8x2048x2048.Idx)
    (h0 : (i 0).val = win0_4.index t (0 : Fin 4)) (h1 : (i 1).val = win0_4.index t (1 : Fin 4))
    (h2 : (i 2).val = win0_4.index t (2 : Fin 4) * 512 + (x 2).val) (h3 : (i 3).val = win0_4.index t (3 : Fin 4) * 2048 + (x 3).val) :
    (iblk m c 4 t : Vec Ideal S1x1x512x2048 .i32) x = (V m c main_v0 : S4x8x2048x2048.Idx → BitVec 32) i := by
  have hx0 : (x 0).val < 1 := (x 0).isLt
  have hx1 : (x 1).val < 1 := (x 1).isLt
  unfold iblk
  rw [View.read_apply]
  show V m c main_v0 _ = V m c main_v0 _
  congr 1
  funext a
  apply Fin.ext
  match a with
  | ⟨0, _⟩ => show win0_4.index t (0 : Fin 4) * 1 + 1 * (x 0).val = (i 0).val; omega
  | ⟨1, _⟩ => show win0_4.index t (1 : Fin 4) * 1 + 1 * (x 1).val = (i 1).val; omega
  | ⟨2, _⟩ => show win0_4.index t (2 : Fin 4) * 512 + 1 * (x 2).val = (i 2).val; omega
  | ⟨3, _⟩ => show win0_4.index t (3 : Fin 4) * 2048 + 1 * (x 3).val = (i 3).val; omega

/-! ## The arrays the region finds, under the names of their roles -/

abbrev Qa (c : Dev nD) : Cert.Attn.QS.Idx → EReal := V m c main_arg0
abbrev Ka (c : Dev nD) : Cert.Attn.QS.Idx → EReal := V m c main_arg1
abbrev Va (c : Dev nD) : Cert.Attn.QS.Idx → EReal := V m c main_arg2
abbrev Ra (c : Dev nD) : Cert.Attn.SS.Idx → EReal := V m c main_arg4
abbrev Wa (c : Dev nD) : Cert.Attn.SS.Idx → BitVec 32 := V m c main_v0

/-- A step's score at (r, k) is the array's score at (b, h, 512 q + r, k): its blocks are those rows. -/
theorem blkScore_eq (c : Dev nD) (t : Fin cfg0.N) (r : Fin 512) (k : Fin 2048) (b : Fin 4) (h : Fin 8) (R kk : Fin 2048)
    (hb : b.val = win0_5.index t (0 : Fin 4)) (hh : h.val = win0_5.index t (1 : Fin 4))
    (hR : R.val = win0_5.index t (2 : Fin 4) * 512 + r.val) (hk : kk.val = k.val) :
    Pay.blkScore (iblk m c 0 t) (iblk m c 1 t) (iblk m c 3 t) (iblk m c 4 t) r k
      = Cert.Attn.rowK (Qa m c) (Ka m c) (Wa m c) (Ra m c) b h R kk := by
  obtain rfl : kk = k := Fin.ext hk
  obtain ⟨e0, e3, e4, -, e1, -, -, -, -, b3⟩ := idx_facts t
  have hq : (fun d : Fin 32 => (iblk m c 0 t : Vec Ideal S1x1x512x32 .f32) (ix4 (0 : Fin 1) (0 : Fin 1) r d)) = Cert.Attn.qrow (Qa m c) b h R :=
    funext fun d => qblk_apply m c t _ (ix4 b h R d)
      (by show b.val = _; rw [congrFun e0 0]; exact hb) (by show h.val = _; rw [congrFun e0 1]; exact hh)
      (by show R.val = _ * 512 + r.val; rw [congrFun e0 2]; exact hR)
      (by show d.val = _ * 32 + d.val; rw [congrFun e0 3, b3]; omega)
  have hkk : (fun d : Fin 32 => (iblk m c 1 t : Vec Ideal S1x1x2048x32 .f32) (ix4 (0 : Fin 1) (0 : Fin 1) kk d)) = Cert.Attn.qrow (Ka m c) b h kk :=
    funext fun d => kblk_apply m c t _ (ix4 b h kk d)
      (by show b.val = _; rw [congrFun e1 0]; exact hb) (by show h.val = _; rw [congrFun e1 1]; exact hh)
      (by show kk.val = _ * 2048 + kk.val; rw [congrFun e1 2]; show kk.val = 0 * 2048 + kk.val; omega)
      (by show d.val = _ * 32 + d.val; rw [congrFun e1 3]; show d.val = 0 * 32 + d.val; omega)
  have hw : (iblk m c 4 t : Vec Ideal S1x1x512x2048 .i32) (ix4 (0 : Fin 1) (0 : Fin 1) r kk) = Wa m c (ix4 b h R kk) :=
    wblk_apply m c t _ (ix4 b h R kk)
      (by show b.val = _; rw [congrFun e4 0]; exact hb) (by show h.val = _; rw [congrFun e4 1]; exact hh)
      (by show R.val = _ * 512 + r.val; rw [congrFun e4 2]; exact hR)
      (by show kk.val = _ * 2048 + kk.val; rw [congrFun e4 3, b3]; omega)
  have hr : (iblk m c 3 t : Vec Ideal S1x1x512x2048 .f32) (ix4 (0 : Fin 1) (0 : Fin 1) r kk) = Ra m c (ix4 b h R kk) :=
    rblk_apply m c t _ (ix4 b h R kk)
      (by show b.val = _; rw [congrFun e3 0]; exact hb) (by show h.val = _; rw [congrFun e3 1]; exact hh)
      (by show R.val = _ * 512 + r.val; rw [congrFun e3 2]; exact hR)
      (by show kk.val = _ * 2048 + kk.val; rw [congrFun e3 3, b3]; omega)
  unfold Pay.blkScore Cert.Attn.rowK
  exact congr (congr (congr (congrArg Cert.Attn.scoreK hq) hkk) hw) hr

end Cert.KernelIdeal.Blocks

end
-- ==== Proof.KernelFinal.lean ====
/-
  The two result arrays of the tiled program after its run, each as one function of the arguments.
  What a step writes back is the tile of scoresK (of ctxK) its index names: the step's blocks are the
  rows of the argument arrays that tile reads (KernelBlocks), and its arithmetic on them is the
  score and the normalised row (KernelPay). The tiles fill either result, so the result IS that array.
  The mask reaches the region widened to 32-bit words by the one host operation before it.
-/
import proofs.«408671_j7799660609952_3_alg».proof.Proof.KernelBlocks

set_option maxRecDepth 16384

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value

variable (m : (ℓ : Loc nD τ sig) → Buf (Elt Ideal) ℓ) (ρ : Dev nD → PrngReg)

/-! ## The step's two stores read at a tile index -/

/-- The score store at tile index y: the step's score at row y 2, key y 3. -/
theorem pay4_at (x0 : Vec Ideal S1x1x512x32 .f32) (x1 : Vec Ideal S1x1x2048x32 .f32)
    (x3 : Vec Ideal S1x1x512x2048 .f32) (x4 : Vec Ideal S1x1x512x2048 .i32)
    (y : S1x1x512x2048.Idx) (r : Fin 512) (k : Fin 2048) (hr : r.val = (y 2).val) (hk : k.val = (y 3).val) :
    k0_pay4 (F := Ideal) x0 x1 x3 x4 y = Pay.blkScore x0 x1 x3 x4 r k := by
  have hy0 : (y 0).val < 1 := (y 0).isLt
  have hy1 : (y 1).val < 1 := (y 1).isLt
  have hy : y = ix4 (0 : Fin 1) (0 : Fin 1) r k := funext fun a => Fin.ext (by
    match a with
    | ⟨0, _⟩ => show (y 0).val = 0; omega
    | ⟨1, _⟩ => show (y 1).val = 0; omega
    | ⟨2, _⟩ => exact hr.symm
    | ⟨3, _⟩ => exact hk.symm)
  rw [hy]
  refine Eq.trans ?_ (Pay.pay3_apply x0 x1 x3 x4 r k)
  exact Pay.shapeCast_ab_11ab_apply (k0_pay3 (F := Ideal) x0 x1 x3 x4) _ (0 : Fin 1) (0 : Fin 1) r k

/-- The context store at tile index y: the normalised score row y 2 against column y 3 of the values. -/
theorem pay1_at (x0 : Vec Ideal S1x1x512x32 .f32) (x1 x2 : Vec Ideal S1x1x2048x32 .f32)
    (x3 : Vec Ideal S1x1x512x2048 .f32) (x4 : Vec Ideal S1x1x512x2048 .i32)
    (y : S1x1x512x32.Idx) (r : Fin 512) (d : Fin 32) (hr : r.val = (y 2).val) (hd : d.val = (y 3).val) :
    k0_pay1 (F := Ideal) (k0_pay2 x2) (k0_pay5 x0 x1 x3 x4) (k0_pay6 x0 x1 x3 x4) y
      = ∑ k : Fin 2048, Cert.Attn.attnK (Pay.blkScore x0 x1 x3 x4 r) k * x2 (ix4 (0 : Fin 1) (0 : Fin 1) k d) := by
  have hy0 : (y 0).val < 1 := (y 0).isLt
  have hy1 : (y 1).val < 1 := (y 1).isLt
  have hy : y = ix4 (0 : Fin 1) (0 : Fin 1) r d := funext fun a => Fin.ext (by
    match a with
    | ⟨0, _⟩ => show (y 0).val = 0; omega
    | ⟨1, _⟩ => show (y 1).val = 0; omega
    | ⟨2, _⟩ => exact hr.symm
    | ⟨3, _⟩ => exact hd.symm)
  rw [hy]
  exact Pay.pay1_apply x0 x1 x2 x3 x4 r d

/-! ## What a step writes back -/

/-- Step t writes back tile t of the score array scoresK of the arrays the region finds. -/
theorem flushed5_eq (c : Dev nD) (t : Fin cfg0.N) :
    (dats m 0 c).flushed 5 t
      = ((cfg0.win 5).blk t).view.read (Elt Ideal) (Cert.Attn.scoresK (Qa m c) (Ka m c) (Wa m c) (Ra m c)) := by
  show (cfg0.win 5).cut (grid0.coords t) ((dats m 0 c).after 5 t) = _
  rw [after0_5]
  unfold out0_5
  rw [View.canon_unit_zero hz]
  simp only [View.ld_unit_zero (S := S1x1x512x32) hz, View.ld_unit_zero (S := S1x1x2048x32) hz,
    View.ld_unit_zero (S := S1x1x512x2048) hz]
  obtain ⟨-, -, -, -, -, -, b0, b1, b2, b3⟩ := idx_facts t
  funext j
  have hj0 : (j 0).val < 1 := (j 0).isLt
  have hj1 : (j 1).val < 1 := (j 1).isLt
  have hj2 : (j 2).val < 512 := (j 2).isLt
  have hj3 : (j 3).val < 2048 := (j 3).isLt
  show k0_pay4 (F := Ideal) (iblk m c 0 t) (iblk m c 1 t) (iblk m c 3 t) (iblk m c 4 t) j
    = Cert.Attn.scoresK (Qa m c) (Ka m c) (Wa m c) (Ra m c) (((cfg0.win 5).blk t).view.emb j)
  refine (pay4_at _ _ _ _ j ⟨(j 2).val, hj2⟩ ⟨(j 3).val, hj3⟩ rfl rfl).trans ?_
  unfold Cert.Attn.scoresK
  exact blkScore_eq m c t _ _ _ _ _ _
    (by show win0_5.index t (0 : Fin 4) * 1 + 1 * (j 0).val = win0_5.index t (0 : Fin 4); omega)
    (by show win0_5.index t (1 : Fin 4) * 1 + 1 * (j 1).val = win0_5.index t (1 : Fin 4); omega)
    (by show win0_5.index t (2 : Fin 4) * 512 + 1 * (j 2).val = win0_5.index t (2 : Fin 4) * 512 + (j 2).val; omega)
    (by show win0_5.index t (3 : Fin 4) * 2048 + 1 * (j 3).val = (j 3).val; omega)

/-- Step t writes back tile t of the context array ctxK of the arrays the region finds. -/
theorem flushed6_eq (c : Dev nD) (t : Fin cfg0.N) :
    (dats m 0 c).flushed 6 t
      = ((cfg0.win 6).blk t).view.read (Elt Ideal) (Cert.Attn.ctxK (Qa m c) (Ka m c) (Va m c) (Wa m c) (Ra m c)) := by
  show (cfg0.win 6).cut (grid0.coords t) ((dats m 0 c).after 6 t) = _
  rw [after0_6]
  unfold out0_6
  rw [View.canon_unit_zero hz]
  simp only [View.ld_unit_zero (S := S1x1x512x32) hz, View.ld_unit_zero (S := S1x1x2048x32) hz,
    View.ld_unit_zero (S := S1x1x512x2048) hz]
  obtain ⟨-, -, -, e6, -, e2, b0, b1, b2, b3⟩ := idx_facts t
  funext j
  have hj0 : (j 0).val < 1 := (j 0).isLt
  have hj1 : (j 1).val < 1 := (j 1).isLt
  have hj2 : (j 2).val < 512 := (j 2).isLt
  have hj3 : (j 3).val < 32 := (j 3).isLt
  show k0_pay1 (F := Ideal) (k0_pay2 (iblk m c 2 t)) (k0_pay5 (iblk m c 0 t) (iblk m c 1 t) (iblk m c 3 t) (iblk m c 4 t))
      (k0_pay6 (iblk m c 0 t) (iblk m c 1 t) (iblk m c 3 t) (iblk m c 4 t)) j
    = Cert.Attn.ctxK (Qa m c) (Ka m c) (Va m c) (Wa m c) (Ra m c) (((cfg0.win 6).blk t).view.emb j)
  refine (pay1_at _ _ _ _ _ j ⟨(j 2).val, hj2⟩ ⟨(j 3).val, hj3⟩ rfl rfl).trans ?_
  unfold Cert.Attn.ctxK
  have hb : (Cert.Attn.qb (((cfg0.win 6).blk t).view.emb j)).val = win0_5.index t (0 : Fin 4) := by
    show win0_6.index t (0 : Fin 4) * 1 + 1 * (j 0).val = _; rw [congrFun e6 0]; omega
  have hh : (Cert.Attn.qh (((cfg0.win 6).blk t).view.emb j)).val = win0_5.index t (1 : Fin 4) := by
    show win0_6.index t (1 : Fin 4) * 1 + 1 * (j 1).val = _; rw [congrFun e6 1]; omega
  have hR : (Cert.Attn.qr (((cfg0.win 6).blk t).view.emb j)).val = win0_5.index t (2 : Fin 4) * 512 + (j 2).val := by
    show win0_6.index t (2 : Fin 4) * 512 + 1 * (j 2).val = _; rw [congrFun e6 2]; omega
  have hd : (Cert.Attn.qd (((cfg0.win 6).blk t).view.emb j)).val = (j 3).val := by
    show win0_6.index t (3 : Fin 4) * 32 + 1 * (j 3).val = _; rw [congrFun e6 3, b3]; omega
  have hrow : Pay.blkScore (iblk m c 0 t) (iblk m c 1 t) (iblk m c 3 t) (iblk m c 4 t) ⟨(j 2).val, hj2⟩
      = Cert.Attn.rowK (Qa m c) (Ka m c) (Wa m c) (Ra m c) (Cert.Attn.qb (((cfg0.win 6).blk t).view.emb j))
          (Cert.Attn.qh (((cfg0.win 6).blk t).view.emb j)) (Cert.Attn.qr (((cfg0.win 6).blk t).view.emb j)) :=
    funext fun k => blkScore_eq m c t _ k _ _ _ k hb hh hR rfl
  rw [hrow]
  refine Finset.sum_congr rfl fun k _ => congrArg (Cert.Attn.attnK _ k * ·) ?_
  exact vblk_apply m c t _ (ix4 _ _ k _)
    (by show (Cert.Attn.qb _).val = _; rw [hb, congrFun e2 0]; rfl)
    (by show (Cert.Attn.qh _).val = _; rw [hh, congrFun e2 1]; rfl)
    (by show k.val = _ * 2048 + k.val; rw [congrFun e2 2]; show k.val = 0 * 2048 + k.val; omega)
    (by show (Cert.Attn.qd _).val = _ * 32 + (j 3).val; rw [hd, congrFun e2 3]; show (j 3).val = 0 * 32 + (j 3).val; omega)

/-! ## The result arrays whole -/

theorem final5 (c : Dev nD) :
    (dats m 0 c).arrAt 5 cfg0.N = Cert.Attn.scoresK (Qa m c) (Ka m c) (Wa m c) (Ra m c) :=
  (dats m 0 c).arrAt_eq_of_cover 5 _ (fun t _ => flushed5_eq m c t) cover5

theorem final6 (c : Dev nD) :
    (dats m 0 c).arrAt 6 cfg0.N = Cert.Attn.ctxK (Qa m c) (Ka m c) (Va m c) (Wa m c) (Ra m c) :=
  (dats m 0 c).arrAt_eq_of_cover 6 _ (fun t _ => flushed6_eq m c t) cover6

/-! ## The arrays the region finds are the arguments, the mask widened -/

theorem Qa_eq (c : Dev nD) : Qa m c = m ((c : Thread nD τ).loc main_arg0) := V_main_arg0 m c
theorem Ka_eq (c : Dev nD) : Ka m c = m ((c : Thread nD τ).loc main_arg1) := V_main_arg1 m c
theorem Va_eq (c : Dev nD) : Va m c = m ((c : Thread nD τ).loc main_arg2) := V_main_arg2 m c
theorem Ra_eq (c : Dev nD) : Ra m c = m ((c : Thread nD τ).loc main_arg4) := V_main_arg4 m c

/-- The one host operation before the region widens each mask bit to a 32-bit word. -/
theorem Wa_eq (c : Dev nD) :
    Wa m c = fun i => ((m ((c : Thread nD τ).loc main_arg3) : S4x8x2048x2048.Idx → BitVec 1) i).setWidth 32 := by
  show (V m c main_v0 : S4x8x2048x2048.Idx → BitVec 32) = _
  dsimp only [V, hostOps0]
  after_results
  rfl

/-! ## The run, read -/

/-- Every weakly fair execution ends with the context at ctxK and the scores at scoresK of the arguments
    (the mask widened), the arguments unchanged. -/
theorem run : θ_run defs (onTc (τ := τ) (main (F := Ideal))) ⟨m, fun _ => 0, ρ⟩ fun r => ∀ c : Dev nD,
      r.2.mem ((c : Thread nD τ).loc main_v1_1)
          = Cert.Attn.ctxK (m ((c : Thread nD τ).loc main_arg0)) (m ((c : Thread nD τ).loc main_arg1))
              (m ((c : Thread nD τ).loc main_arg2))
              (fun i => ((m ((c : Thread nD τ).loc main_arg3) : S4x8x2048x2048.Idx → BitVec 1) i).setWidth 32)
              (m ((c : Thread nD τ).loc main_arg4))
      ∧ r.2.mem ((c : Thread nD τ).loc main_v1_0)
          = Cert.Attn.scoresK (m ((c : Thread nD τ).loc main_arg0)) (m ((c : Thread nD τ).loc main_arg1))
              (fun i => ((m ((c : Thread nD τ).loc main_arg3) : S4x8x2048x2048.Idx → BitVec 1) i).setWidth 32)
              (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
      ⟨(h c).2.1.trans (by rw [final6, Qa_eq, Ka_eq, Va_eq, Wa_eq, Ra_eq]; rfl),
       (h c).1.trans (by rw [final5, Qa_eq, Ka_eq, Wa_eq, Ra_eq]; rfl),
       (h c).2.2⟩)
    (Value.run_blocks m ρ)

end Cert.KernelIdeal.Blocks

end
-- ==== Proof.RefValue.lean ====
/-
  The plain program's two results as AttnArrays' arrays in the plain spelling: its masked scores are
  scoresR of its arguments and its context is ctxR of them, index by index.
-/
import proofs.«408671_j7799660609952_3_alg».proof.Proof.Gen.ReferenceIdeal.Read
import proofs.«408671_j7799660609952_3_alg».proof.Proof.AttnArrays
import Idealize.ShloMosaic.PureOps.Reduce

noncomputable section

namespace Cert.ReferenceIdeal.RefValue

open Idealize.ShloMosaic Idealize.ShloMosaic.ValueIdx Cert.ReferenceIdeal Cert.ReferenceIdeal.Gen Cert.ReferenceIdeal.Read

/-! ## Where the two contractions read their operands -/

/-- Score (b, h, r, k) reads feature d of query row (b, h, r) ... -/
theorem lidx_v0 (b : Fin 4) (h : Fin 8) (r k : Fin 2048) (d : Fin 32) :
    lidx_main_v0 (ix4 b h r k) d = ix4 b h r d :=
  funext fun a => Fin.ext (by match a with | ⟨0, _⟩ => rfl | ⟨1, _⟩ => rfl | ⟨2, _⟩ => rfl | ⟨3, _⟩ => rfl)

/-- ... against feature d of key row (b, h, k). -/
theorem ridx_v0 (b : Fin 4) (h : Fin 8) (r k : Fin 2048) (d : Fin 32) :
    ridx_main_v0 (ix4 b h r k) d = ix4 b h k d :=
  funext fun a => Fin.ext (by match a with | ⟨0, _⟩ => rfl | ⟨1, _⟩ => rfl | ⟨2, _⟩ => rfl | ⟨3, _⟩ => rfl)

/-- One masked score of the plain program is one entry of the plain-spelling score row. -/
theorem v4_apply (x0 x1 : (⟨S4x8x2048x32, .f32⟩ : BufTy).Contents (Elt Ideal))
    (x3 : (⟨S4x8x2048x2048, .i1⟩ : BufTy).Contents (Elt Ideal)) (x4 : (⟨S4x8x2048x2048, .f32⟩ : BufTy).Contents (Elt Ideal))
    (b : Fin 4) (h : Fin 8) (r k : Fin 2048) :
    val_main_v4 (F := Ideal) x0 x1 x3 x4 (ix4 b h r k) = Cert.Attn.rowR x0 x1 x3 x4 b h r k := by
  rw [val_main_v4_apply, val_main_call0_v0_apply, val_main_cst_0_apply, val_main_v3_apply, val_main_v2_apply,
    val_main_v0_apply, val_main_v1_apply, val_main_cst_apply]
  unfold Cert.Attn.rowR Cert.Attn.scoreR Cert.Attn.qrow
  simp only [lidx_v0, ridx_v0]
  rfl

/-- Every index of the score array is the index of its four coordinates. -/
theorem eq_ix4_s (i : S4x8x2048x2048.Idx) :
    i = ix4 (Cert.Attn.sb i) (Cert.Attn.sh i) (Cert.Attn.sr i) (Cert.Attn.sk i) :=
  funext fun a => Fin.ext (by match a with | ⟨0, _⟩ => rfl | ⟨1, _⟩ => rfl | ⟨2, _⟩ => rfl | ⟨3, _⟩ => rfl)

/-! ## The row maximum -/

/-- The index the max-reduce reads at coordinate k of the dropped axis, over the row (b, h, r). -/
theorem lift_ix3 (hr : S4x8x2048x2048.Reduces [3] S4x8x2048) (b : Fin 4) (h : Fin 8) (r k : Fin 2048) :
    hr.lift (ix3 b h r) k = ix4 b h r k :=
  funext fun a => Fin.ext (by match a with | ⟨0, _⟩ => rfl | ⟨1, _⟩ => rfl | ⟨2, _⟩ => rfl | ⟨3, _⟩ => rfl)

/-- The max-reduce over the key axis, at row (b, h, r), is the row maximum of the score row. -/
theorem v5_apply (x0 x1 : (⟨S4x8x2048x32, .f32⟩ : BufTy).Contents (Elt Ideal))
    (x3 : (⟨S4x8x2048x2048, .i1⟩ : BufTy).Contents (Elt Ideal)) (x4 : (⟨S4x8x2048x2048, .f32⟩ : BufTy).Contents (Elt Ideal))
    (b : Fin 4) (h : Fin 8) (r : Fin 2048) :
    val_main_v5 (F := Ideal) x0 x1 x3 x4 (ix3 b h r) = Cert.Attn.rowMax (Cert.Attn.rowR x0 x1 x3 x4 b h r) := by
  have hr : S4x8x2048x2048.Reduces [3] S4x8x2048 := by decide
  have hf : ∀ k : Fin 2048, val_main_v4 (F := Ideal) x0 x1 x3 x4 (hr.lift (ix3 b h r) k)
      = Cert.Attn.rowR x0 x1 x3 x4 b h r k := fun k => by rw [lift_ix3]; exact v4_apply x0 x1 x3 x4 b h r k
  unfold val_main_v5
  generalize val_main_v4 (F := Ideal) x0 x1 x3 x4 = y0 at hf ⊢
  have e := Host.reduce_eq_fold_single (a := 3) (FloatOps.maximumf (F := Ideal) (φ := .f32)) y0 (val_main_cst_1 (F := Ideal))
    Facts₀.reducesTo_S4x8x2048x2048_S4x8x2048_d3 hr Facts₀.h_S_ (ix3 b h r)
  refine e.trans ?_
  unfold Cert.Attn.rowMax
  show (Finset.univ : Finset (Fin 2048)).fold max (Ideal.ofBits .f32 0xFF800000#32) (fun k => y0 (hr.lift (ix3 b h r) k)) = _
  exact congrArg (fun f : Fin 2048 → EReal => (Finset.univ : Finset (Fin 2048)).fold max (Ideal.ofBits .f32 0xFF800000#32) f)
    (funext hf)

/-! ## The normalised row -/

/-- Broadcasting a per-row value back over the key axis reads it at the row (b, h, r): the maximum's two broadcasts ... -/
theorem idx_v8_v9 (b : Fin 4) (h : Fin 8) (r k : Fin 2048) :
    idx_main_v8 (idx_main_v9 (ix4 b h r k)) = ix3 b h r :=
  funext fun a => Fin.ext (by match a with | ⟨0, _⟩ => rfl | ⟨1, _⟩ => rfl | ⟨2, _⟩ => rfl)

/-- ... and the row sum's two. -/
theorem idx_v13_v14 (b : Fin 4) (h : Fin 8) (r k : Fin 2048) :
    idx_main_v13 (idx_main_v14 (ix4 b h r k)) = ix3 b h r :=
  funext fun a => Fin.ext (by match a with | ⟨0, _⟩ => rfl | ⟨1, _⟩ => rfl | ⟨2, _⟩ => rfl)

/-- The sum-reduce at row (b, h, r) reads entry j of that row. -/
theorem idx_v12 (b : Fin 4) (h : Fin 8) (r j : Fin 2048) :
    idx_main_v12 (ix3 b h r) j = ix4 b h r j :=
  funext fun a => Fin.ext (by match a with | ⟨0, _⟩ => rfl | ⟨1, _⟩ => rfl | ⟨2, _⟩ => rfl | ⟨3, _⟩ => rfl)

/-- The value subtracted from every score of row (b, h, r): the row maximum, taken once more against -inf. -/
theorem v9_apply (x0 x1 : (⟨S4x8x2048x32, .f32⟩ : BufTy).Contents (Elt Ideal))
    (x3 : (⟨S4x8x2048x2048, .i1⟩ : BufTy).Contents (Elt Ideal)) (x4 : (⟨S4x8x2048x2048, .f32⟩ : BufTy).Contents (Elt Ideal))
    (b : Fin 4) (h : Fin 8) (r k : Fin 2048) :
    val_main_v9 (F := Ideal) x0 x1 x3 x4 (ix4 b h r k)
      = max (Ideal.ofBits .f32 0xFF800000#32) (Cert.Attn.rowMax (Cert.Attn.rowR x0 x1 x3 x4 b h r)) := by
  rw [val_main_v9_apply, val_main_v8_apply, idx_v8_v9, val_main_v7_apply, val_main_v6_apply, val_main_cst_2_apply,
    v5_apply]
  rfl

/-- The exponential of a score less that value. -/
theorem v11_apply (x0 x1 : (⟨S4x8x2048x32, .f32⟩ : BufTy).Contents (Elt Ideal))
    (x3 : (⟨S4x8x2048x2048, .i1⟩ : BufTy).Contents (Elt Ideal)) (x4 : (⟨S4x8x2048x2048, .f32⟩ : BufTy).Contents (Elt Ideal))
    (b : Fin 4) (h : Fin 8) (r k : Fin 2048) :
    val_main_v11 (F := Ideal) x0 x1 x3 x4 (ix4 b h r k)
      = Ideal.exp (Cert.Attn.rowR x0 x1 x3 x4 b h r k
          - max (Ideal.ofBits .f32 0xFF800000#32) (Cert.Attn.rowMax (Cert.Attn.rowR x0 x1 x3 x4 b h r))) := by
  rw [val_main_v11_apply, val_main_v10_apply, v4_apply, v9_apply]
  rfl

/-- The row's sum of exponentials, started from 0. -/
theorem v14_apply (x0 x1 : (⟨S4x8x2048x32, .f32⟩ : BufTy).Contents (Elt Ideal))
    (x3 : (⟨S4x8x2048x2048, .i1⟩ : BufTy).Contents (Elt Ideal)) (x4 : (⟨S4x8x2048x2048, .f32⟩ : BufTy).Contents (Elt Ideal))
    (b : Fin 4) (h : Fin 8) (r k : Fin 2048) :
    val_main_v14 (F := Ideal) x0 x1 x3 x4 (ix4 b h r k)
      = Ideal.ofBits .f32 0x00000000#32 + ∑ j : Fin 2048, Ideal.exp (Cert.Attn.rowR x0 x1 x3 x4 b h r j
          - max (Ideal.ofBits .f32 0xFF800000#32) (Cert.Attn.rowMax (Cert.Attn.rowR x0 x1 x3 x4 b h r))) := by
  rw [val_main_v14_apply, val_main_v13_apply, idx_v13_v14, val_main_v12_apply, val_main_cst_3_apply]
  refine congrArg₂ (· + ·) rfl (Finset.sum_congr rfl fun j _ => ?_)
  rw [idx_v12]
  exact v11_apply x0 x1 x3 x4 b h r j

/-- One normalised score of the plain program is one entry of the plain-spelling normalised row. -/
theorem v15_apply (x0 x1 : (⟨S4x8x2048x32, .f32⟩ : BufTy).Contents (Elt Ideal))
    (x3 : (⟨S4x8x2048x2048, .i1⟩ : BufTy).Contents (Elt Ideal)) (x4 : (⟨S4x8x2048x2048, .f32⟩ : BufTy).Contents (Elt Ideal))
    (b : Fin 4) (h : Fin 8) (r k : Fin 2048) :
    val_main_v15 (F := Ideal) x0 x1 x3 x4 (ix4 b h r k)
      = Cert.Attn.attnR (Cert.Attn.rowR x0 x1 x3 x4 b h r) k := by
  rw [val_main_v15_apply, v11_apply, v14_apply]
  rfl

/-! ## The context -/

/-- Context (b, h, r, d) reads entry k of the normalised row (b, h, r) ... -/
theorem lidx_v16 (i : S4x8x2048x32.Idx) (k : Fin 2048) :
    lidx_main_v16 i k = ix4 (Cert.Attn.qb i) (Cert.Attn.qh i) (Cert.Attn.qr i) k :=
  funext fun a => Fin.ext (by match a with | ⟨0, _⟩ => rfl | ⟨1, _⟩ => rfl | ⟨2, _⟩ => rfl | ⟨3, _⟩ => rfl)

/-- ... against entry (k, d) of the value block (b, h). -/
theorem ridx_v16 (i : S4x8x2048x32.Idx) (k : Fin 2048) :
    ridx_main_v16 i k = ix4 (Cert.Attn.qb i) (Cert.Attn.qh i) k (Cert.Attn.qd i) :=
  funext fun a => Fin.ext (by match a with | ⟨0, _⟩ => rfl | ⟨1, _⟩ => rfl | ⟨2, _⟩ => rfl | ⟨3, _⟩ => rfl)

/-- The masked scores the plain program returns. -/
theorem scores_eq (x0 x1 : (⟨S4x8x2048x32, .f32⟩ : BufTy).Contents (Elt Ideal))
    (x3 : (⟨S4x8x2048x2048, .i1⟩ : BufTy).Contents (Elt Ideal)) (x4 : (⟨S4x8x2048x2048, .f32⟩ : BufTy).Contents (Elt Ideal)) :
    val_main_v4 (F := Ideal) x0 x1 x3 x4 = Cert.Attn.scoresR x0 x1 x3 x4 := by
  funext i
  unfold Cert.Attn.scoresR
  exact (congrArg (val_main_v4 (F := Ideal) x0 x1 x3 x4) (eq_ix4_s i)).trans (v4_apply x0 x1 x3 x4 _ _ _ _)

/-- The context the plain program returns. -/
theorem ctx_eq (x0 x1 x2 : (⟨S4x8x2048x32, .f32⟩ : BufTy).Contents (Elt Ideal))
    (x3 : (⟨S4x8x2048x2048, .i1⟩ : BufTy).Contents (Elt Ideal)) (x4 : (⟨S4x8x2048x2048, .f32⟩ : BufTy).Contents (Elt Ideal)) :
    val_main_v16 (F := Ideal) x0 x1 x2 x3 x4 = Cert.Attn.ctxR x0 x1 x2 x3 x4 := by
  funext i
  rw [val_main_v16_apply]
  unfold Cert.Attn.ctxR
  refine Finset.sum_congr rfl fun k _ => ?_
  rw [lidx_v16, ridx_v16, v15_apply]

end Cert.ReferenceIdeal.RefValue

end
-- ==== Proof.Finite.lean ====
/-
  What the precondition gives: where every float input is below +inf in absolute value, every entry
  of the queries, the keys and the bias is a real number (neither infinity).
-/
import proofs.«408671_j7799660609952_3_alg».proof.Pre_finite_inputs
import proofs.«408671_j7799660609952_3_alg».proof.Proof.Gen.Pre_finite_inputs
import Idealize.ShloMosaic.Lib.ReduceAll
import Idealize.ShloMosaic.PureOps.Ideal
import Idealize.ShloMosaic.Lib.ValueIdx

noncomputable section

namespace Cert.Pre_finite_inputs.Finite

open Idealize.ShloMosaic Idealize.ShloMosaic.ValueIdx Cert.Pre_finite_inputs

/-- The result shape of a reduction over every axis has exactly one index. -/
instance : Subsingleton S_.Idx := ⟨fun a b => funext fun d => d.elim0⟩

/-- The f32 pattern with exponent all ones and fraction zero denotes the top element. -/
theorem posInf_eq : (FloatOps.ofBits (F := Ideal) .f32 0x7F800000#32) = (⊤ : EReal) := by
  simp [Ideal.ofBits, Ideal.ieee]

/-- An extended real whose absolute value max x (-x) is strictly below the top is a real number:
    at the top the maximum is the top, at the bottom the negation is the top. -/
theorem real_of_abs_lt (x : Ideal .f32)
    (h : FloatOps.cmpf (F := Ideal) .olt (FloatOps.hostAbsf x) (FloatOps.ofBits .f32 0x7F800000#32) = 1#1) :
    ∃ r : ℝ, x = (r : EReal) := by
  rw [posInf_eq] at h
  change Ideal.cmp .olt (max x (-x)) ⊤ = 1#1 at h
  induction x using EReal.rec with
  | bot => simp [Ideal.cmp] at h
  | coe r => exact ⟨r, rfl⟩
  | top => simp [Ideal.cmp] at h

/-- A conjunction over every index read back: where the conjunction, over every index, of the comparisons
    |a i| < +inf is one, every entry of the array is a real number. The broadcast of the scalar bound reads the
    bound at every index, whatever the index. -/
theorem all_real {s : Shape} {axes : List (Fin s.rank)} (a : FVec Ideal s .f32)
    (hb : S_.BroadcastsInDim s (![] : Fin 0 → Fin s.rank)) (hr : s.ReducesTo axes S_) (hu : 0 < S_.numel)
    (init : IVec S_ 1)
    (e : Host.reduce IntOp.andi
        (cmpf .olt (Host.absf a) (broadcastInDim s ![] hb (constant (F := Ideal) S_ .f32 0x7F800000#32))) init hr hu ix0
          = 1#1) :
    ∀ i, ∃ r : ℝ, a i = (r : EReal) := fun i =>
  real_of_abs_lt (a i) (Host.reduce_andi_all _ init hr hu ix0 e i)

/-- All ones from the precondition: queries, keys and bias are real everywhere. -/
theorem real_of_pre [Cert.Pre_finite_inputs.Facts] (a0 a1 a2 : FVec Ideal S4x8x2048x32 .f32) (a3 : IVec S4x8x2048x2048 1)
    (a4 : FVec Ideal S4x8x2048x2048 .f32)
    (h : Cert.Pre_finite_inputs.fn (F := Ideal) a0 a1 a2 a3 a4 = fun _ => 1#1) :
    (∀ i, ∃ x : ℝ, a0 i = (x : EReal)) ∧ (∀ i, ∃ x : ℝ, a1 i = (x : EReal)) ∧ (∀ i, ∃ x : ℝ, a4 i = (x : EReal)) := by
  have h0 := congrFun h ValueIdx.ix0
  unfold Cert.Pre_finite_inputs.fn Cert.Pre_finite_inputs.fn_part1 at h0
  dsimp only at h0
  -- the outer conjunction: ((queries ∧ keys) ∧ values) ∧ bias
  obtain ⟨h012, h4⟩ := IntOp.andi_eq_one.1 h0
  obtain ⟨h01, -⟩ := IntOp.andi_eq_one.1 h012
  obtain ⟨hq, hk⟩ := IntOp.andi_eq_one.1 h01
  exact ⟨all_real a0 _ _ _ _ hq, all_real a1 _ _ _ _ hk, all_real a4 _ _ _ _ h4⟩

end Cert.Pre_finite_inputs.Finite

end
-- ==== Proof.lean ====
/-
  Attention with an additive bias and a boolean mask, tiled over (batch, head, 512 query rows), against
  the plain einsum / where / softmax / einsum.

  Both programs return (context, scores) with
    scores  = where(mask, -10^9, c <q, k> + bias),  c the rounded 1/sqrt 32,
    context = softmax(scores along the keys) v.
  The tiled program scales q before the product, receives the mask widened to 32-bit words, and
  normalises by p * (1 / l); the plain one scales the product, selects on the bit, takes the row
  maximum once more against -inf, starts its sum from 0 and divides p / l. On the extended reals a
  change of float format is the identity, so the narrowing of the weights and the values before the
  second product changes nothing.
  Where queries, keys and bias are finite (the precondition) the score arrays are one array, by
  distributivity of a finite real sum, and then every score is real, every row sum a positive real,
  and the two normalisations agree: AttnSpec, AttnArrays. The values need no finiteness.
  KernelFinal reads the tiled program's run as ctxK and scoresK of its arguments, RefValue the plain
  program's as ctxR and scoresR, Finite opens the precondition. The frames of the two tiled programs
  are the generated ones; the plain program's is its run with the results dropped; the idealization
  rewrote nothing, so preserves is trivial.
-/
import proofs.«408671_j7799660609952_3_alg».proof.Defs
import proofs.«408671_j7799660609952_3_alg».proof.Proof.Gen.Kernel
import proofs.«408671_j7799660609952_3_alg».proof.Proof.Gen.Kernel.Skeleton
import proofs.«408671_j7799660609952_3_alg».proof.Proof.Gen.Kernel.Launch
import proofs.«408671_j7799660609952_3_alg».proof.Proof.Gen.Kernel.Points
import proofs.«408671_j7799660609952_3_alg».proof.Proof.Gen.Kernel.Frame
import proofs.«408671_j7799660609952_3_alg».proof.Proof.Gen.KernelIdeal
import proofs.«408671_j7799660609952_3_alg».proof.Proof.Gen.KernelIdeal.Skeleton
import proofs.«408671_j7799660609952_3_alg».proof.Proof.Gen.KernelIdeal.Launch
import proofs.«408671_j7799660609952_3_alg».proof.Proof.Gen.KernelIdeal.Points
import proofs.«408671_j7799660609952_3_alg».proof.Proof.Gen.KernelIdeal.Frame
import proofs.«408671_j7799660609952_3_alg».proof.Proof.Gen.ReferenceIdeal
import proofs.«408671_j7799660609952_3_alg».proof.Proof.Gen.Pre_finite_inputs
import proofs.«408671_j7799660609952_3_alg».proof.Proof.Gen.KernelIdeal.Value
import proofs.«408671_j7799660609952_3_alg».proof.Proof.Gen.ReferenceIdeal.Run
import proofs.«408671_j7799660609952_3_alg».proof.Proof.Gen.ReferenceIdeal.Read
import proofs.«408671_j7799660609952_3_alg».proof.Proof.AttnArrays
import proofs.«408671_j7799660609952_3_alg».proof.Proof.KernelFinal
import proofs.«408671_j7799660609952_3_alg».proof.Proof.RefValue
import proofs.«408671_j7799660609952_3_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The plain program's run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the five arguments, finite in queries, keys and bias, both programs end
    with the context at ctxK and the scores at scoresK of the tiled program's arguments: the tiled one
    by its run read tile by tile, the plain one by its run read operation by operation and the bridge
    from the plain spelling to the tiled one. -/
theorem algebraic : Cert.algebraic_KernelIdeal_ReferenceIdeal := by
  intro m ρ m' ρ' hpre hagree
  refine ⟨_, _, Cert.KernelIdeal.Blocks.run m ρ, ?_⟩
  refine (θ_run Cert.ReferenceIdeal.defs _ _).mono (fun _ h c => ?_) (Cert.ReferenceIdeal.Value.run (F := Ideal) m' ρ')
  obtain ⟨hQ, hK, hR⟩ := Cert.Pre_finite_inputs.Finite.real_of_pre _ _ _ _ _ (hpre c)
  obtain ⟨a0, a1, a2, a3, a4⟩ := hagree c
  refine ⟨(h c).1.trans ?_, (h c).2.1.trans ?_, (h c).2.2⟩
  · refine (Cert.ReferenceIdeal.Read.val_main_v16_eq _ _ _ _ _).trans ?_
    refine (Cert.ReferenceIdeal.RefValue.ctx_eq _ _ _ _ _).trans ?_
    rw [a0, a1, a2, a3, a4]
    exact (Cert.Attn.ctxK_eq_ctxR _ _ _ _ _ hQ hK hR).symm
  · refine (Cert.ReferenceIdeal.Read.val_main_v4_eq _ _ _ _).trans ?_
    refine (Cert.ReferenceIdeal.RefValue.scores_eq _ _ _ _).trans ?_
    rw [a0, a1, a3, a4]
    exact (Cert.Attn.scoresK_eq_scoresR _ _ _ _ hQ hK).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
